-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S640000 : Shape := ⟨1, ![640000]⟩
abbrev S640000x64 : Shape := ⟨2, ![640000, 64]⟩
abbrev S10000 : Shape := ⟨1, ![10000]⟩
abbrev S10000x2 : Shape := ⟨2, ![10000, 2]⟩
abbrev S128x64 : Shape := ⟨2, ![128, 64]⟩
abbrev S128 : Shape := ⟨1, ![128]⟩
abbrev S128x128 : Shape := ⟨2, ![128, 128]⟩
abbrev S1x640000 : Shape := ⟨2, ![1, 640000]⟩
abbrev S_ : Shape := ⟨0, ![]⟩

class Facts : Prop where
  slices_S2x640000_S1x640000_0_0 : S2x640000.Slices ![0, 0] S1x640000
  shapeCasts_S1x640000_S640000 : S1x640000.ShapeCasts S640000
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S640000x64 : S_.BroadcastsInDim S640000x64 (![] : Fin 0 → Fin S640000x64.rank)
  reducesTo_S640000x64_S_d0_1 : S640000x64.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg14 : FVec F S128 .f32) (main_v1 : IVec S640000 32) (main_v50 : IVec S_ 1) (main_v51 : FVec F S128x128 .f32) : IVec S_ 1 :=
  let main_cst_18 : FVec F S_ .f32 := constant S_ .f32 0x7F800000#32
  let main_v52 : FVec F S128x128 .f32 := broadcastInDim S128x128 ![] bcast_S_S128x128 main_cst_18
  let main_v53 : IVec S128x128 1 := cmpf .olt main_v51 main_v52
  let main_c_19 : IVec S_ 1 := constantI S_ 1 1#1
  let main_v54 : IVec S_ 1 := (fun x v => Host.reduce IntOp.andi x v reducesTo_S128x128_S_d0_1 h_S_) main_v53 main_c_19
  let main_v55 : IVec S_ 1 := andi main_v50 main_v54
  let main_v56 : FVec F S128 .f32 := Host.absf main_arg14
  let main_cst_20 : FVec F S_ .f32 := constant S_ .f32 0x7F800000#32
  let main_v57 : FVec F S128 .f32 := broadcastInDim S128 ![] bcast_S_S128 main_cst_20
  let main_v58 : IVec S128 1 := cmpf .olt main_v56 main_v57
  let main_c_21 : IVec S_ 1 := constantI S_ 1 1#1
  let main_v59 : IVec S_ 1 := (fun x v => Host.reduce IntOp.andi x v reducesTo_S128_S_d0 h_S_) main_v58 main_c_21
  let main_v60 : IVec S_ 1 := andi main_v55 main_v59
  let main_c_22 : IVec S_ 32 := constantI S_ 32 4294957296#32
  let main_v61 : IVec S640000 32 := broadcastInDim S640000 ![] bcast_S_S640000 main_c_22
  let main_v62 : IVec S640000 1 := cmpi .sge main_v1 main_v61
  let main_c_23 : IVec S_ 32 := constantI S_ 32 10000#32
  let main_v63 : IVec S640000 32 := broadcastInDim S640000 ![] bcast_S_S640000 main_c_23
  let main_v64 : IVec S640000 1 := cmpi .slt main_v1 main_v63
  let main_v65 : IVec S640000 1 := andi main_v62 main_v64
  let main_c_24 : IVec S_ 1 := constantI S_ 1 1#1
  let main_v66 : IVec S_ 1 := (fun x v => Host.reduce IntOp.andi x v reducesTo_S640000_S_d0 h_S_) main_v65 main_c_24
  let main_v67 : IVec S_ 1 := andi main_v60 main_v66
  main_v67

def fn_part2 {F : FTy → Type} [FloatOps F] (main_arg10 : FVec F S128x128 .f32) (main_arg11 : FVec F S128x128 .f32) (main_arg12 : FVec F S128 .f32) (main_arg13 : FVec F S128x128 .f32) (main_arg14 : FVec F S128 .f32) (main_v1 : IVec S640000 32) (main_v30 : IVec S_ 1) (main_v33 : IVec S128 1) (main_c_11 : IVec S_ 1) : IVec S_ 1 :=
  let main_v34 : IVec S_ 1 := (fun x v => Host.reduce IntOp.andi x v reducesTo_S128_S_d0 h_S_) main_v33 main_c_11
  let main_v35 : IVec S_ 1 := andi main_v30 main_v34
  let main_v36 : FVec F S128x128 .f32 := Host.absf main_arg10
  let main_cst_12 : FVec F S_ .f32 := constant S_ .f32 0x7F800000#32
  let main_v37 : FVec F S128x128 .f32 := broadcastInDim S128x128 ![] bcast_S_S128x128 main_cst_12
  let main_v38 : IVec S128x128 1 := cmpf .olt main_v36 main_v37
  let main_c_13 : IVec S_ 1 := constantI S_ 1 1#1
  let main_v39 : IVec S_ 1 := (fun x v => Host.reduce IntOp.andi x v reducesTo_S128x128_S_d0_1 h_S_) main_v38 main_c_13
  let main_v40 : IVec S_ 1 := andi main_v35 main_v39
  let main_v41 : FVec F S128x128 .f32 := Host.absf main_arg11
  let main_cst_14 : FVec F S_ .f32 := constant S_ .f32 0x7F800000#32
  let main_v42 : FVec F S128x128 .f32 := broadcastInDim S128x128 ![] bcast_S_S128x128 main_cst_14
  let main_v43 : IVec S128x128 1 := cmpf .olt main_v41 main_v42
  let main_c_15 : IVec S_ 1 := constantI S_ 1 1#1
  let main_v44 : IVec S_ 1 := (fun x v => Host.reduce IntOp.andi x v reducesTo_S128x128_S_d0_1 h_S_) main_v43 main_c_15
  let main_v45 : IVec S_ 1 := andi main_v40 main_v44
  let main_v46 : FVec F S128 .f32 := Host.absf main_arg12
  let main_cst_16 : FVec F S_ .f32 := constant S_ .f32 0x7F800000#32
  let main_v47 : FVec F S128 .f32 := broadcastInDim S128 ![] bcast_S_S128 main_cst_16
  let main_v48 : IVec S128 1 := cmpf .olt main_v46 main_v47
  let main_c_17 : IVec S_ 1 := constantI S_ 1 1#1
  let main_v49 : IVec S_ 1 := (fun x v => Host.reduce IntOp.andi x v reducesTo_S128_S_d0 h_S_) main_v48 main_c_17
  let main_v50 : IVec S_ 1 := andi main_v45 main_v49
  let main_v51 : FVec F S128x128 .f32 := Host.absf main_arg13
  fn_part3 (F := F) main_arg14 main_v1 main_v50 main_v51

def fn_part1 {F : FTy → Type} [FloatOps F] (main_arg7 : FVec F S128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128 .f32) (main_v1 : IVec S640000 32) (main_v15 : IVec S_ 1) (main_v16 : FVec F S128x64 .f32) (main_cst_4 : FVec F S_ .f32) : IVec S_ 1 :=
  let main_v17 : FVec F S128x64 .f32 := broadcastInDim S128x64 ![] bcast_S_S128x64 main_cst_4
  let main_v18 : IVec S128x64 1 := cmpf .olt main_v16 main_v17
  let main_c_5 : IVec S_ 1 := constantI S_ 1 1#1
  let main_v19 : IVec S_ 1 := (fun x v => Host.reduce IntOp.andi x v reducesTo_S128x64_S_d0_1 h_S_) main_v18 main_c_5
  let main_v20 : IVec S_ 1 := andi main_v15 main_v19
  let main_v21 : FVec F S128 .f32 := Host.absf main_arg7
  let main_cst_6 : FVec F S_ .f32 := constant S_ .f32 0x7F800000#32
  let main_v22 : FVec F S128 .f32 := broadcastInDim S128 ![] bcast_S_S128 main_cst_6
  let main_v23 : IVec S128 1 := cmpf .olt main_v21 main_v22
  let main_c_7 : IVec S_ 1 := constantI S_ 1 1#1
  let main_v24 : IVec S_ 1 := (fun x v => Host.reduce IntOp.andi x v reducesTo_S128_S_d0 h_S_) main_v23 main_c_7
  let main_v25 : IVec S_ 1 := andi main_v20 main_v24
  let main_v26 : FVec F S128x128 .f32 := Host.absf main_arg8
  let main_cst_8 : FVec F S_ .f32 := constant S_ .f32 0x7F800000#32
  let main_v27 : FVec F S128x128 .f32 := broadcastInDim S128x128 ![] bcast_S_S128x128 main_cst_8
  let main_v28 : IVec S128x128 1 := cmpf .olt main_v26 main_v27
  let main_c_9 : IVec S_ 1 := constantI S_ 1 1#1
  let main_v29 : IVec S_ 1 := (fun x v => Host.reduce IntOp.andi x v reducesTo_S128x128_S_d0_1 h_S_) main_v28 main_c_9
  let main_v30 : IVec S_ 1 := andi main_v25 main_v29
  let main_v31 : FVec F S128 .f32 := Host.absf main_arg9
  let main_cst_10 : FVec F S_ .f32 := constant S_ .f32 0x7F800000#32
  let main_v32 : FVec F S128 .f32 := broadcastInDim S128 ![] bcast_S_S128 main_cst_10
  let main_v33 : IVec S128 1 := cmpf .olt main_v31 main_v32
  let main_c_11 : IVec S_ 1 := constantI S_ 1 1#1
  fn_part2 (F := F) main_arg10 main_arg11 main_arg12 main_arg13 main_arg14 main_v1 main_v30 main_v33 main_c_11

def fn {F : FTy → Type} [FloatOps F] (main_arg0 : FVec F S10000x128 .f32) (main_arg1 : IVec S2x640000 32) (main_arg2 : FVec F S640000 .f32) (main_arg3 : FVec F S640000x64 .f32) (main_arg4 : IVec S10000 32) (main_arg5 : IVec S10000x2 32) (main_arg6 : FVec F S128x64 .f32) (main_arg7 : FVec F S128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128 .f32) : IVec S_ 1 :=
  let main_v0 : IVec S1x640000 32 := (extractStridedSlice S1x640000 ![0, 0] · slices_S2x640000_S1x640000_0_0) main_arg1
  let main_v1 : IVec S640000 32 := shapeCast S640000 main_v0 shapeCasts_S1x640000_S640000
  let main_v2 : FVec F S10000x128 .f32 := Host.absf main_arg0
  let main_cst : FVec F S_ .f32 := constant S_ .f32 0x7F800000#32
  let main_v3 : FVec F S10000x128 .f32 := broadcastInDim S10000x128 ![] bcast_S_S10000x128 main_cst
  let main_v4 : IVec S10000x128 1 := cmpf .olt main_v2 main_v3
  let main_c : IVec S_ 1 := constantI S_ 1 1#1
  let main_v5 : IVec S_ 1 := (fun x v => Host.reduce IntOp.andi x v reducesTo_S10000x128_S_d0_1 h_S_) main_v4 main_c
  let main_v6 : FVec F S640000 .f32 := Host.absf main_arg2
  let main_cst_0 : FVec F S_ .f32 := constant S_ .f32 0x7F800000#32
  let main_v7 : FVec F S640000 .f32 := broadcastInDim S640000 ![] bcast_S_S640000 main_cst_0
  let main_v8 : IVec S640000 1 := cmpf .olt main_v6 main_v7
  let main_c_1 : IVec S_ 1 := constantI S_ 1 1#1
  let main_v9 : IVec S_ 1 := (fun x v => Host.reduce IntOp.andi x v reducesTo_S640000_S_d0 h_S_) main_v8 main_c_1
  let main_v10 : IVec S_ 1 := andi main_v5 main_v9
  let main_v11 : FVec F S640000x64 .f32 := Host.absf main_arg3
  let main_cst_2 : FVec F S_ .f32 := constant S_ .f32 0x7F800000#32
  let main_v12 : FVec F S640000x64 .f32 := broadcastInDim S640000x64 ![] bcast_S_S640000x64 main_cst_2
  let main_v13 : IVec S640000x64 1 := cmpf .olt main_v11 main_v12
  let main_c_3 : IVec S_ 1 := constantI S_ 1 1#1
  let main_v14 : IVec S_ 1 := (fun x v => Host.reduce IntOp.andi x v reducesTo_S640000x64_S_d0_1 h_S_) main_v13 main_c_3
  let main_v15 : IVec S_ 1 := andi main_v10 main_v14
  let main_v16 : FVec F S128x64 .f32 := Host.absf main_arg6
  let main_cst_4 : FVec F S_ .f32 := constant S_ .f32 0x7F800000#32
  fn_part1 (F := F) main_arg7 main_arg8 main_arg9 main_arg10 main_arg11 main_arg12 main_arg13 main_arg14 main_v1 main_v15 main_v16 main_cst_4
-- ==== Kernel.lean ====
abbrev S10000x128 : Shape := ⟨2, ![10000, 128]⟩
abbrev S2x640000 : Shape := ⟨2, ![2, 640000]⟩
abbrev S640000 : Shape := ⟨1, ![640000]⟩
abbrev S640000x64 : Shape := ⟨2, ![640000, 64]⟩
abbrev S10000 : Shape := ⟨1, ![10000]⟩
abbrev S10000x2 : Shape := ⟨2, ![10000, 2]⟩
abbrev S128x64 : Shape := ⟨2, ![128, 64]⟩
abbrev S128 : Shape := ⟨1, ![128]⟩
abbrev S128x128 : Shape := ⟨2, ![128, 128]⟩
abbrev S1x640000 : Shape := ⟨2, ![1, 640000]⟩
abbrev S1000x128 : Shape := ⟨2, ![1000, 128]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x128 : Shape := ⟨2, ![640000, 128]⟩
abbrev S1x128 : Shape := ⟨2, ![1, 128]⟩
abbrev S10000x64 : Shape := ⟨2, ![10000, 64]⟩
abbrev S10000x1 : Shape := ⟨2, ![10000, 1]⟩
abbrev S64x128 : Shape := ⟨2, ![64, 128]⟩

abbrev nBuf : Space → Nat
  | .hbm => 54
  | .vmem => 25
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S640000, .f32⟩
  | .hbm, ⟨3, _⟩ => ⟨S640000x64, .f32⟩
  | .hbm, ⟨4, _⟩ => ⟨S10000, .i32⟩
  | .hbm, ⟨5, _⟩ => ⟨S10000x2, .i32⟩
  | .hbm, ⟨6, _⟩ => ⟨S128x64, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S1x640000, .i32⟩
  | .hbm, ⟨16, _⟩ => ⟨S640000, .i32⟩
  | .hbm, ⟨17, _⟩ => ⟨S1x640000, .i32⟩
  | .hbm, ⟨18, _⟩ => ⟨S640000, .i32⟩
  | .hbm, ⟨19, _⟩ => ⟨S10000x128, .f32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S1, .i32⟩
  | .hbm, ⟨29, _⟩ => ⟨S_, .i32⟩
  | .hbm, ⟨30, _⟩ => ⟨S640000x1, .i32⟩
  | .hbm, ⟨31, _⟩ => ⟨S640000x1, .i1⟩
  | .hbm, ⟨32, _⟩ => ⟨S1x1, .i32⟩
  | .hbm, ⟨33, _⟩ => ⟨S640000x1, .i32⟩
  | .hbm, ⟨34, _⟩ => ⟨S640000x1, .i1⟩
  | .hbm, ⟨35, _⟩ => ⟨S640000x1, .i1⟩
  | .hbm, ⟨36, _⟩ => ⟨S_, .i1⟩
  | .hbm, ⟨37, _⟩ => ⟨S640000, .i1⟩
  | .hbm, ⟨38, _⟩ => ⟨S640000x128, .f32⟩
  | .hbm, ⟨39, _⟩ => ⟨S640000x128, .i1⟩
  | .hbm, ⟨40, _⟩ => ⟨S_, .f32⟩
  | .hbm, ⟨41, _⟩ => ⟨S640000x128, .f32⟩
  | .hbm, ⟨42, _⟩ => ⟨S640000x128, .f32⟩
  | .hbm, ⟨43, _⟩ => ⟨S640000x1, .f32⟩
  | .hbm, ⟨44, _⟩ => ⟨S1x128, .f32⟩
  | .hbm, ⟨45, _⟩ => ⟨S1x128, .f32⟩
  | .hbm, ⟨46, _⟩ => ⟨S640000x128, .f32⟩
  | .hbm, ⟨47, _⟩ => ⟨S_, .f32⟩
  | .hbm, ⟨48, _⟩ => ⟨S10000x128, .f32⟩
  | .hbm, ⟨49, _⟩ => ⟨S640000x1, .i32⟩
  | .hbm, ⟨50, _⟩ => ⟨S10000x128, .f32⟩
  | .hbm, ⟨51, _⟩ => ⟨S1x128, .f32⟩
  | .hbm, ⟨52, _⟩ => ⟨S1x128, .f32⟩
  | .hbm, ⟨53, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1000x128, .f32⟩
  | .local _ .vmem, ⟨4, _⟩ => ⟨S1000x128, .f32⟩
  | .local _ .vmem, ⟨5, _⟩ => ⟨S10000x64, .f32⟩
  | .local _ .vmem, ⟨6, _⟩ => ⟨S10000x64, .f32⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | .local _ .vmem, ⟨11, _⟩ => ⟨S128x64, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S10000x128, .f32⟩
  | .local _ .vmem, ⟨16, _⟩ => ⟨S10000x128, .f32⟩
  | .local _ .vmem, ⟨17, _⟩ => ⟨S1000x128, .f32⟩
  | .local _ .vmem, ⟨18, _⟩ => ⟨S1000x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S1000x128, .f32⟩
  | .local _ .vmem, ⟨24, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_cst : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  shapeCasts_S640000_S640000x1 : S640000.ShapeCasts S640000x1
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  inb_S128x64_S128x64_0_0 : ∀ a, (![0, 0] : Fin 2 → Nat) a + S128x64.size a ≤ S128x64.size a
  h_S128x64 : 0 < S128x64.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  transposes_S128x64_p1_0_S64x128 : S128x64.Transposes [1, 0] S64x128
  broadcasts_S1x128_S10000x128 : S1x128.Broadcasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S10000x1_S10000x128 : S10000x1.Broadcasts S10000x128
  bcast_S_S10000x128 : S_.BroadcastsInDim S10000x128 (![] : Fin 0 → Fin S10000x128.rank)
  shapeCasts_S1000x128_S1000x128 : S1000x128.ShapeCasts S1000x128
  broadcasts_S1x128_S1000x128 : S1x128.Broadcasts S1000x128
  dot_S1000x128_S128x128_S1000x128_1_0_0_1_n_n_wf : DotDims.WF S1000x128 S128x128 S1000x128 [1] [0] [0] [1] [] []
  gather_S10000x128_S640000x1_S640000x128_1_0_n_n_0_1_1128_wf : GatherDims.WF S10000x128 S640000x1 S640000x128 [1] [0] [] [0] [] 1 ![1, 128]
  dot_S10000x64_S64x128_S10000x128_1_0_0_1_n_n_wf : DotDims.WF S10000x64 S64x128 S10000x128 [1] [0] [0] [1] [] []
  dot_S10000x128_S128x128_S10000x128_1_0_0_1_n_n_wf : DotDims.WF S10000x128 S128x128 S10000x128 [1] [0] [0] [1] [] []
  scatter_S10000x128_S640000x1_S640000x128_1_0_0_1_wf : ScatterDims.WF S10000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S10000x128.size a
  hwx0_2 : ∀ i : grid0.Coords, EltTy.bits .f32 = 32 ∨ (Rect.block (s := S10000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S640000x64.size a
  hwx1_0 : ∀ i : grid1.Coords, EltTy.bits .f32 = 32 ∨ (Rect.block (s := S640000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S640000x1.size a
  hwx1_1 : ∀ i : grid1.Coords, EltTy.bits .f32 = 32 ∨ (Rect.block (s := S640000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S640000x128.size a
  hwx1_2 : ∀ i : grid1.Coords, EltTy.bits .f32 = 32 ∨ (Rect.block (s := S640000x128) S10000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x128.size a ≤ S640000x128.size a
  hwx1_7 : ∀ i : grid1.Coords, EltTy.bits .f32 = 32 ∨ (Rect.block (s := S640000x128) S10000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S10000x128.size a
  hwx2_0 : ∀ i : grid2.Coords, EltTy.bits .f32 = 32 ∨ (Rect.block (s := S10000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x128.size a ≤ S10000x128.size a
  hwx2_5 : ∀ i : grid2.Coords, EltTy.bits .f32 = 32 ∨ (Rect.block (s := S10000x128) S1000x128.size (cc2_transform_5 i) (hinb2_5 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg10) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S10000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S10000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v12) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v15) S1000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S640000 : Shape := ⟨1, ![640000]⟩
abbrev S640000x64 : Shape := ⟨2, ![640000, 64]⟩
abbrev S10000 : Shape := ⟨1, ![10000]⟩
abbrev S10000x2 : Shape := ⟨2, ![10000, 2]⟩
abbrev S128x64 : Shape := ⟨2, ![128, 64]⟩
abbrev S128 : Shape := ⟨1, ![128]⟩
abbrev S128x128 : Shape := ⟨2, ![128, 128]⟩
abbrev S_ : Shape := ⟨0, ![]⟩
abbrev S64x128 : Shape := ⟨2, ![64, 128]⟩
abbrev S640000x128 : Shape := ⟨2, ![640000, 128]⟩
abbrev S1x128 : Shape := ⟨2, ![1, 128]⟩
abbrev S640000x1 : Shape := ⟨2, ![640000, 1]⟩
abbrev S1x640000 : Shape := ⟨2, ![1, 640000]⟩

abbrev nBuf : Space → Nat
  | .hbm => 77
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S640000, .f32⟩
  | .hbm, ⟨3, _⟩ => ⟨S640000x64, .f32⟩
  | .hbm, ⟨4, _⟩ => ⟨S10000, .i32⟩
  | .hbm, ⟨5, _⟩ => ⟨S10000x2, .i32⟩
  | .hbm, ⟨6, _⟩ => ⟨S128x64, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S_, .f32⟩
  | .hbm, ⟨16, _⟩ => ⟨S640000, .f32⟩
  | .hbm, ⟨17, _⟩ => ⟨S640000, .f32⟩
  | .hbm, ⟨18, _⟩ => ⟨S640000, .f32⟩
  | .hbm, ⟨19, _⟩ => ⟨S_, .f32⟩
  | .hbm, ⟨20, _⟩ => ⟨S640000, .f32⟩
  | .hbm, ⟨21, _⟩ => ⟨S640000, .f32⟩
  | .hbm, ⟨22, _⟩ => ⟨S_, .f32⟩
  | .hbm, ⟨23, _⟩ => ⟨S640000, .f32⟩
  | .hbm, ⟨24, _⟩ => ⟨S640000, .f32⟩
  | .hbm, ⟨25, _⟩ => ⟨S_, .f32⟩
  | .hbm, ⟨26, _⟩ => ⟨S640000, .f32⟩
  | .hbm, ⟨27, _⟩ => ⟨S640000, .i1⟩
  | .hbm, ⟨28, _⟩ => ⟨S_, .f32⟩
  | .hbm, ⟨29, _⟩ => ⟨S_, .f32⟩
  | .hbm, ⟨30, _⟩ => ⟨S640000, .f32⟩
  | .hbm, ⟨31, _⟩ => ⟨S640000, .f32⟩
  | .hbm, ⟨32, _⟩ => ⟨S64x128, .f32⟩
  | .hbm, ⟨33, _⟩ => ⟨S640000x128, .f32⟩
  | .hbm, ⟨34, _⟩ => ⟨S1x128, .f32⟩
  | .hbm, ⟨35, _⟩ => ⟨S640000x128, .f32⟩
  | .hbm, ⟨36, _⟩ => ⟨S640000x128, .f32⟩
  | .hbm, ⟨37, _⟩ => ⟨S640000x128, .f32⟩
  | .hbm, ⟨38, _⟩ => ⟨S128x128, .f32⟩
  | .hbm, ⟨39, _⟩ => ⟨S640000x128, .f32⟩
  | .hbm, ⟨40, _⟩ => ⟨S1x128, .f32⟩
  | .hbm, ⟨41, _⟩ => ⟨S640000x128, .f32⟩
  | .hbm, ⟨42, _⟩ => ⟨S640000x128, .f32⟩
  | .hbm, ⟨43, _⟩ => ⟨S640000x1, .f32⟩
  | .hbm, ⟨44, _⟩ => ⟨S640000x128, .f32⟩
  | .hbm, ⟨45, _⟩ => ⟨S640000x128, .f32⟩
  | .hbm, ⟨46, _⟩ => ⟨S128x128, .f32⟩
  | .hbm, ⟨47, _⟩ => ⟨S10000x128, .f32⟩
  | .hbm, ⟨48, _⟩ => ⟨S1x640000, .i32⟩
  | .hbm, ⟨49, _⟩ => ⟨S640000, .i32⟩
  | .hbm, ⟨50, _⟩ => ⟨S1x640000, .i32⟩
  | .hbm, ⟨51, _⟩ => ⟨S640000, .i32⟩
  | .hbm, ⟨52, _⟩ => ⟨S_, .i32⟩
  | .hbm, ⟨53, _⟩ => ⟨S640000, .i32⟩
  | .hbm, ⟨54, _⟩ => ⟨S640000, .i1⟩
  | .hbm, ⟨55, _⟩ => ⟨S_, .i32⟩
  | .hbm, ⟨56, _⟩ => ⟨S640000, .i32⟩
  | .hbm, ⟨57, _⟩ => ⟨S640000, .i32⟩
  | .hbm, ⟨58, _⟩ => ⟨S640000, .i32⟩
  | .hbm, ⟨59, _⟩ => ⟨S640000x1, .i32⟩
  | .hbm, ⟨60, _⟩ => ⟨S640000x128, .f32⟩
  | .hbm, ⟨61, _⟩ => ⟨S640000x128, .f32⟩
  | .hbm, ⟨62, _⟩ => ⟨S_, .f32⟩
  | .hbm, ⟨63, _⟩ => ⟨S10000x128, .f32⟩
  | .hbm, ⟨64, _⟩ => ⟨S640000x1, .i32⟩
  | .hbm, ⟨65, _⟩ => ⟨S10000x128, .f32⟩
  | .hbm, ⟨66, _⟩ => ⟨S128x128, .f32⟩
  | .hbm, ⟨67, _⟩ => ⟨S10000x128, .f32⟩
  | .hbm, ⟨68, _⟩ => ⟨S1x128, .f32⟩
  | .hbm, ⟨69, _⟩ => ⟨S10000x128, .f32⟩
  | .hbm, ⟨70, _⟩ => ⟨S10000x128, .f32⟩
  | .hbm, ⟨71, _⟩ => ⟨S10000x128, .f32⟩
  | .hbm, ⟨72, _⟩ => ⟨S128x128, .f32⟩
  | .hbm, ⟨73, _⟩ => ⟨S10000x128, .f32⟩
  | .hbm, ⟨74, _⟩ => ⟨S1x128, .f32⟩
  | .hbm, ⟨75, _⟩ => ⟨S10000x128, .f32⟩
  | .hbm, ⟨76, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_cst_2 : Ref sig .tc := ⟨.hbm, 25, rfl⟩
abbrev main_v7 : Ref sig .tc := ⟨.hbm, 26, rfl⟩
abbrev main_v8 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c : Ref sig .tc := ⟨.hbm, 52, rfl⟩
abbrev main_v30 : Ref sig .tc := ⟨.hbm, 53, rfl⟩
abbrev main_v31 : Ref sig .tc := ⟨.hbm, 54, rfl⟩
abbrev main_c_4 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_5 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  transposes_S128x64_S64x128_1_0 : S128x64.Transposes [1, 0] S64x128
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  transposes_S128x128_S128x128_1_0 : S128x128.Transposes [1, 0] S128x128
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S10000x128 : S_.BroadcastsInDim S10000x128 (![] : Fin 0 → Fin S10000x128.rank)
  bcast_S1x128_S10000x128_0_1 : S1x128.BroadcastsInDim S10000x128 (![0, 1] : Fin 2 → Fin S10000x128.rank)
  dot_S640000x64_S64x128_S640000x128_1_0_0_1_n_n_wf : DotDims.WF S640000x64 S64x128 S640000x128 [1] [0] [0] [1] [] []
  dot_S640000x128_S128x128_S640000x128_1_0_0_1_n_n_wf : DotDims.WF S640000x128 S128x128 S640000x128 [1] [0] [0] [1] [] []
  dot_S10000x128_S128x128_S10000x128_1_0_0_1_n_n_wf : DotDims.WF S10000x128 S128x128 S10000x128 [1] [0] [0] [1] [] []
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1

variable [Facts₀]

def dot_S640000x64_S64x128_S640000x128_1_0_0_1_n_n : DotDims S640000x64 S64x128 S640000x128 where
  lhsContracting := [1]
  rhsContracting := [0]
  lhsNonContracting := [0]
  rhsNonContracting := [1]
  lhsBatch := []
  rhsBatch := []
  wf := dot_S640000x64_S64x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf

class Facts : Prop extends Facts₀ where

variable [Facts]
-- ==== Proof.Take.lean ====
/-
  Taking rows of the projected node features by the edges' source indices.
  The program wraps a negative index (src + 10000 where src < 0, numpy's counting from the end), gathers the rows, and then
  replaces by a not-a-number fill every row whose wrapped index is outside 0 … 9999. A gather alone clamps such an index to
  the nearest row instead, so the two differ exactly on out-of-range indices. Where every source index lies in
  −10000 … 9999 the wrapped index lies in 0 … 9999, the mask is all ones, and the filled take is the plain gather.
-/
import proofs.«431437_j31559419691084_1_alg».proof.Proof.Gen.KernelIdeal
import Idealize.ShloMosaic.Lib.ValueIdx
import Idealize.ShloMosaic.Lib.Pipeline.Value
import Idealize.ShloMosaic.PureOps.Reduce

noncomputable section

namespace Cert.KernelIdeal.Take

open Cert.KernelIdeal Cert.KernelIdeal.Facts₀
open Idealize.ShloMosaic Idealize.ShloMosaic.ValueIdx

variable {F : FTy → Type} [FloatOps F]

/-! ## One index word -/

theorem cmpi_slt_one_iff (a b : BitVec 32) : IntOp.cmpi .slt a b = 1#1 ↔ a.toInt < b.toInt := by
  show BitVec.ofBool (a.slt b) = 1#1 ↔ _
  rw [BitVec.slt_eq_decide]
  by_cases h : a.toInt < b.toInt <;> simp [h]
theorem cmpi_sle_one_iff (a b : BitVec 32) : IntOp.cmpi .sle a b = 1#1 ↔ a.toInt ≤ b.toInt := by
  show BitVec.ofBool (a.sle b) = 1#1 ↔ _
  rw [BitVec.sle_eq_decide]
  by_cases h : a.toInt ≤ b.toInt <;> simp [h]
theorem cmpi_sge_one_iff (a b : BitVec 32) : IntOp.cmpi .sge a b = 1#1 ↔ b.toInt ≤ a.toInt := by
  show BitVec.ofBool (b.sle a) = 1#1 ↔ _
  rw [BitVec.sle_eq_decide]
  by_cases h : b.toInt ≤ a.toInt <;> simp [h]

/-- numpy's wrap of a negative index on one word: w + 10000 where w < 0 (signed), w otherwise. -/
def wrapWord (w : BitVec 32) : BitVec 32 := Scalar.select (IntOp.cmpi .slt w 0#32) (IntOp.addi w 10000#32) w

/-- A word in −10000 … 9999 (signed), wrapped, lies in 0 … 9999: below zero the sum w + 10000 does not overflow. -/
theorem wrapWord_range (w : BitVec 32) (hlo : -10000 ≤ w.toInt) (hhi : w.toInt < 10000) :
    0 ≤ (wrapWord w).toInt ∧ (wrapWord w).toInt ≤ 9999 := by
  have h0 : (0#32 : BitVec 32).toInt = 0 := by decide
  have hk : (10000#32 : BitVec 32).toInt = 10000 := by decide
  unfold wrapWord
  by_cases hneg : w.toInt < 0
  · have hs : IntOp.cmpi .slt w 0#32 = 1#1 := (cmpi_slt_one_iff w 0#32).2 (by rw [h0]; exact hneg)
    rw [hs, select_one]
    have ha : (IntOp.addi w 10000#32).toInt = w.toInt + 10000 := by
      show (w + 10000#32).toInt = _
      rw [BitVec.toInt_add, hk]
      exact Int.bmod_eq_of_le (by omega) (by omega)
    rw [ha]; omega
  · have hs : IntOp.cmpi .slt w 0#32 = 0#1 :=
      eq_zero_of_ne_one fun h => hneg (by have := (cmpi_slt_one_iff w 0#32).1 h; rwa [h0] at this)
    rw [hs, select_zero]; omega

/-! ## The arrays -/

/-- The source index with the wrap of negatives, entry by entry. -/
def wrapIdx (src : IVec S640000 32) : IVec S640000 32 :=
  select (cmpi .slt src (broadcastInDim S640000 ![] bcast_S_S640000 (constantI S_ 32 0#32)))
    (addi src (broadcastInDim S640000 ![] bcast_S_S640000 (constantI S_ 32 10000#32))) src

theorem wrapIdx_apply (src : IVec S640000 32) (e : S640000.Idx) : wrapIdx src e = wrapWord (src e) := rfl

/-- The wrapped indices as the [E, 1] column of start indices the gather takes. -/
def idxCol (src : IVec S640000 32) : IVec S640000x1 32 :=
  broadcastInDim S640000x1 ![0] bcast_S640000_S640000x1_0 (wrapIdx src)

theorem idxCol_apply (src : IVec S640000 32) (p : Fin 640000) (q : Fin 1) :
    idxCol src (ix2 p q) = wrapWord (src (ix1 p)) := by
  unfold idxCol
  rw [broadcastInDim_apply ![0] bcast_S640000_S640000x1_0 (wrapIdx src) (ix2 p q) (ix1 p) (fun a => by
    match a with
    | ⟨0, _⟩ => show p.val = if (640000 : Nat) = 1 then 0 else p.val; rw [if_neg (by decide)]), wrapIdx_apply]

/-- Per edge, whether the wrapped index names a row: 0 ≤ idx ≤ 9999, and-reduced over the column's one entry. -/
def inRange (src : IVec S640000 32) : IVec S640000 1 :=
  Host.reduce IntOp.andi
    (andi (cmpi .sge (idxCol src) (broadcastInDim S640000x1 ![] bcast_S_S640000x1 (constantI S_ 32 0#32)))
      (cmpi .sle (idxCol src)
        (broadcastInDim S640000x1 ![0, 1] bcast_S1x1_S640000x1_0_1 (broadcastInDim S1x1 ![1] bcast_S1_S1x1_1 (constantI S1 32 9999#32)))))
    (constantI S_ 1 1#1) reducesTo_S640000x1_S640000_d1 h_S_

/-- The take with fill: the gathered row where the wrapped index names a row, the not-a-number word elsewhere. -/
def takeFill (h : FVec F S10000x128 .f32) (src : IVec S640000 32) : FVec F S640000x128 .f32 :=
  select (broadcastInDim S640000x128 ![0] bcast_S640000_S640000x128_0 (inRange src))
    (Host.gather gather_S10000x128_S640000x1_S640000x128_1_0_n_n_0_1_1128 h (idxCol src))
    (broadcastInDim S640000x128 ![] bcast_S_S640000x128 (constant S_ .f32 0x7FC00000#32))

/-- An and-fold from 1 over entries that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- An and-reduce from 1 of an array of ones is 1 everywhere. -/
theorem reduce_andi_of_forall {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x hx _

/-- With every source index in −10000 … 9999 the mask is 1 at every edge. -/
theorem inRange_eq_one (src : IVec S640000 32) (hsrc : ∀ e : S640000.Idx, -10000 ≤ (src e).toInt ∧ (src e).toInt < 10000)
    (e : S640000.Idx) : inRange src e = 1#1 := by
  have h0 : (0#32 : BitVec 32).toInt = 0 := by decide
  have h9 : (9999#32 : BitVec 32).toInt = 9999 := by decide
  unfold inRange
  refine reduce_andi_of_forall _ _ _ _ rfl (fun i => ?_) e
  obtain ⟨p, q, rfl⟩ : ∃ (p : Fin 640000) (q : Fin 1), i = ix2 p q := ⟨i 0, i 1, eq_ix2 i⟩
  show IntOp.andi (IntOp.cmpi .sge (idxCol src (ix2 p q)) 0#32) (IntOp.cmpi .sle (idxCol src (ix2 p q)) 9999#32) = 1#1
  rw [idxCol_apply]
  obtain ⟨h1, h2⟩ := wrapWord_range _ (hsrc (ix1 p)).1 (hsrc (ix1 p)).2
  rw [(cmpi_sge_one_iff _ _).2 (by rw [h0]; exact h1), (cmpi_sle_one_iff _ _).2 (by rw [h9]; exact h2)]
  decide

/-- With every source index in −10000 … 9999 the take with fill is the plain gather at the wrapped indices. -/
theorem takeFill_eq_gather (h : FVec F S10000x128 .f32) (src : IVec S640000 32)
    (hsrc : ∀ e : S640000.Idx, -10000 ≤ (src e).toInt ∧ (src e).toInt < 10000) :
    takeFill h src = Host.gather gather_S10000x128_S640000x1_S640000x128_1_0_n_n_0_1_1128 h (idxCol src) := by
  funext i
  unfold takeFill
  rw [select_apply]
  have hm : broadcastInDim S640000x128 ![0] bcast_S640000_S640000x128_0 (inRange src) i = 1#1 := by
    rw [broadcastInDim_apply ![0] bcast_S640000_S640000x128_0 (inRange src) i (ix1 (n := 640000) (i 0)) (fun a => by
      match a with
      | ⟨0, _⟩ => show (i 0).val = if (640000 : Nat) = 1 then 0 else (i 0).val; rw [if_neg (by decide)])]
    exact inRange_eq_one src hsrc _
  rw [hm, select_one]

end Cert.KernelIdeal.Take

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.LibDense.lean ====
/-
  The product of an [M, K] array with the TRANSPOSE of an [N, K] array (a linear layer's x · wᵀ, the weight stored
  output-major), as one whole-array function over the extended reals: entry (r, c) is the sum over k of x (r, k) · w (c, k).
  Two computations are that function, for any extents and any dimension-numbers record contracting the left operand's
  axis 1 against the right operand's axis 0:
    * a block product into the zero accumulator whose operands were first narrowed to bf16 (a change of float format is
      the identity on the extended reals) and whose right operand was transposed;
    * the host's dot_general against the transposed weight.
  With it, a bias row added along the rows and a bias column multiplied along the columns, read at an index.
-/
import Idealize.ShloMosaic.PureOps.Ideal.Laws
import Idealize.ShloMosaic.Lib.ValueIdx
import Idealize.ShloMosaic.Lib.ValueLayout
import Idealize.ShloMosaic.Lib.Pipeline.Value
import proofs.«431437_j31559419691084_1_alg».proof.Proof.LibDotSum

noncomputable section

namespace Cert.Lib

open Idealize.ShloMosaic Idealize.ShloMosaic.ValueIdx

variable {M K N : Nat}

/-- x · wᵀ: entry (r, c) is the sum over k of x (r, k) · w (c, k). -/
def mulT (x : FVec Ideal ⟨2, ![M, K]⟩ .f32) (w : FVec Ideal ⟨2, ![N, K]⟩ .f32) : FVec Ideal ⟨2, ![M, N]⟩ .f32 :=
  fun i => ∑ k : Fin K, x (ix2 (i 0) k) * w (ix2 (i 1) k)

theorem mulT_apply (x : FVec Ideal ⟨2, ![M, K]⟩ .f32) (w : FVec Ideal ⟨2, ![N, K]⟩ .f32) (r : Fin M) (c : Fin N) :
    mulT x w (ix2 r c) = ∑ k : Fin K, x (ix2 r k) * w (ix2 c k) := rfl

/-- Row r of x · wᵀ depends on row r of x only: if two left operands agree on their rows r and r', so do the products. -/
theorem mulT_row_congr {M' : Nat} (x : FVec Ideal ⟨2, ![M, K]⟩ .f32) (x' : FVec Ideal ⟨2, ![M', K]⟩ .f32)
    (w : FVec Ideal ⟨2, ![N, K]⟩ .f32) (r : Fin M) (r' : Fin M') (h : ∀ k : Fin K, x (ix2 r k) = x' (ix2 r' k)) (c : Fin N) :
    mulT x w (ix2 r c) = mulT x' w (ix2 r' c) := by
  rw [mulT_apply, mulT_apply]
  exact Finset.sum_congr rfl fun k _ => by rw [h k]

/-- The block product of the narrowed operands, the right one transposed, into the zero accumulator, is x · wᵀ. -/
theorem matmul_trunc_transpose (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32)
    (hb : FTy.bf16.bits < FTy.f32.bits) (hb' : FTy.bf16.bits < FTy.f32.bits)
    (ht : (⟨2, ![N, K]⟩ : Shape).Transposes [1, 0] ⟨2, ![K, N]⟩) :
    matmul d prec (truncf .bf16 x hb) (transpose ⟨2, ![K, N]⟩ [1, 0] (truncf .bf16 w hb') ht)
        (constant ⟨2, ![M, N]⟩ .f32 0x00000000#32) = mulT x w := by
  funext i
  obtain ⟨r, c, rfl⟩ : ∃ (r : Fin M) (c : Fin N), i = ix2 r c := ⟨i 0, i 1, eq_ix2 i⟩
  rw [matmul_rc_apply d hlc hrc hln hrn hlb hrb, mulT_apply]
  refine Finset.sum_congr rfl fun k _ => ?_
  rw [transpose_ix2_apply]
  rfl

/-- The host's product against the transposed weight is x · wᵀ. -/
theorem dotGeneral_transpose (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32)
    (ht : (⟨2, ![N, K]⟩ : Shape).Transposes [1, 0] ⟨2, ![K, N]⟩) :
    Host.dotGeneral d prec x (transpose ⟨2, ![K, N]⟩ [1, 0] w ht) = mulT x w := by
  funext i
  obtain ⟨r, c, rfl⟩ : ∃ (r : Fin M) (c : Fin N), i = ix2 r c := ⟨i 0, i 1, eq_ix2 i⟩
  rw [dotGeneral_rc_apply d hlc hrc hln hrn hlb hrb, mulT_apply]
  refine Finset.sum_congr rfl fun k _ => ?_
  rw [transpose_ix2_apply]

/-- An [M, 1] column broadcast over N columns reads, at (r, c), the column's entry of row r. -/
theorem broadcastTo_a1_ab_apply {α : Type} (v : (⟨2, ![M, 1]⟩ : Shape).Idx → α)
    (h : (⟨2, ![M, 1]⟩ : Shape).Broadcasts ⟨2, ![M, N]⟩) (r : Fin M) (c : Fin N) :
    broadcastTo ⟨2, ![M, N]⟩ v h (ix2 r c) = v (ix2 r (0 : Fin 1)) := by
  refine broadcastTo_apply v h (ix2 r c) (ix2 r (0 : Fin 1)) fun ax => ?_
  match ax with
  | ⟨0, _⟩ =>
    show r.val = if M = 1 then 0 else r.val
    split
    · have := r.isLt; omega
    · rfl
  | ⟨1, _⟩ => rfl

/-- An [M] array cast to an [M, 1] column reads, at (r, u), the operand at r, whatever the unit coordinate u. -/
theorem shapeCast_a_a1_apply {α : Type} (x : (⟨1, ![M]⟩ : Shape).Idx → α)
    (h : (⟨1, ![M]⟩ : Shape).ShapeCasts ⟨2, ![M, 1]⟩) (r : Fin M) (u : Fin 1) :
    shapeCast ⟨2, ![M, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-! ## A linear layer with a bias row, and two of them around a tanh -/

/-- x · wᵀ + b: the bias, a [1, N] row, added along every row. -/
def affine (x : FVec Ideal ⟨2, ![M, K]⟩ .f32) (w : FVec Ideal ⟨2, ![N, K]⟩ .f32) (b : FVec Ideal ⟨2, ![1, N]⟩ .f32) :
    FVec Ideal ⟨2, ![M, N]⟩ .f32 :=
  fun i => mulT x w i + b (ix2 (0 : Fin 1) (i 1))

theorem affine_apply (x : FVec Ideal ⟨2, ![M, K]⟩ .f32) (w : FVec Ideal ⟨2, ![N, K]⟩ .f32) (b : FVec Ideal ⟨2, ![1, N]⟩ .f32)
    (r : Fin M) (c : Fin N) :
    affine x w b (ix2 r c) = (∑ k : Fin K, x (ix2 r k) * w (ix2 c k)) + b (ix2 (0 : Fin 1) c) := rfl

/-- Row r of a linear layer's output depends on row r of its input only. -/
theorem affine_row_congr {M' : Nat} (x : FVec Ideal ⟨2, ![M, K]⟩ .f32) (x' : FVec Ideal ⟨2, ![M', K]⟩ .f32)
    (w : FVec Ideal ⟨2, ![N, K]⟩ .f32) (b : FVec Ideal ⟨2, ![1, N]⟩ .f32) (r : Fin M) (r' : Fin M')
    (h : ∀ k : Fin K, x (ix2 r k) = x' (ix2 r' k)) (c : Fin N) :
    affine x w b (ix2 r c) = affine x' w b (ix2 r' c) := by
  rw [affine_apply, affine_apply]
  exact congrArg (· + b (ix2 (0 : Fin 1) c)) (Finset.sum_congr rfl fun k _ => by rw [h k])

/-- tanh of every entry. -/
def tanhA {s : Shape} (y : FVec Ideal s .f32) : FVec Ideal s .f32 := fun i => Ideal.tanh (y i)

theorem tanhA_apply {s : Shape} (y : FVec Ideal s .f32) (i : s.Idx) : tanhA y i = Ideal.tanh (y i) := rfl

/-- The device's vector tanh and the host's are that map on the extended reals. -/
theorem tanh_eq_tanhA {s : Shape} (y : FVec Ideal s .f32) : tanh y = tanhA y := rfl
theorem hostTanh_eq_tanhA {s : Shape} (y : FVec Ideal s .f32) : Host.tanh y = tanhA y := rfl

/-- A two-layer network (layer, tanh, layer) is row-local: its output's row r depends on its input's row r only. -/
theorem affine_tanh_affine_row_congr {M' H : Nat} (x : FVec Ideal ⟨2, ![M, K]⟩ .f32) (x' : FVec Ideal ⟨2, ![M', K]⟩ .f32)
    (w₁ : FVec Ideal ⟨2, ![H, K]⟩ .f32) (b₁ : FVec Ideal ⟨2, ![1, H]⟩ .f32)
    (w₂ : FVec Ideal ⟨2, ![N, H]⟩ .f32) (b₂ : FVec Ideal ⟨2, ![1, N]⟩ .f32) (r : Fin M) (r' : Fin M')
    (h : ∀ k : Fin K, x (ix2 r k) = x' (ix2 r' k)) (c : Fin N) :
    affine (tanhA (affine x w₁ b₁)) w₂ b₂ (ix2 r c) = affine (tanhA (affine x' w₁ b₁)) w₂ b₂ (ix2 r' c) :=
  affine_row_congr _ _ w₂ b₂ r r' (fun k => congrArg Ideal.tanh (affine_row_congr x x' w₁ b₁ r r' h k)) c

/-- The device's form of the layer: the block product of the narrowed operands into the zero accumulator, plus the bias
    row broadcast over the rows. -/
theorem addf_matmul_bias (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32) (b : FVec Ideal ⟨2, ![1, N]⟩ .f32)
    (hb : FTy.bf16.bits < FTy.f32.bits) (hb' : FTy.bf16.bits < FTy.f32.bits)
    (ht : (⟨2, ![N, K]⟩ : Shape).Transposes [1, 0] ⟨2, ![K, N]⟩)
    (hbc : (⟨2, ![1, N]⟩ : Shape).Broadcasts ⟨2, ![M, N]⟩) :
    addf (matmul d prec (truncf .bf16 x hb) (transpose ⟨2, ![K, N]⟩ [1, 0] (truncf .bf16 w hb') ht)
        (constant ⟨2, ![M, N]⟩ .f32 0x00000000#32)) (broadcastTo ⟨2, ![M, N]⟩ b hbc) = affine x w b := by
  rw [matmul_trunc_transpose d hlc hrc hln hrn hlb hrb]
  funext i
  obtain ⟨r, c, rfl⟩ : ∃ (r : Fin M) (c : Fin N), i = ix2 r c := ⟨i 0, i 1, eq_ix2 i⟩
  rw [addf_apply, broadcastTo_1b_ab_apply]
  rfl

/-- An [N] vector laid along the columns of an [M, N] array through a [1, N] row reads, at (r, c), the vector at c. -/
theorem broadcastInDim_row_apply {α : Type} (h₁ : (⟨1, ![N]⟩ : Shape).BroadcastsInDim ⟨2, ![1, N]⟩ ![1])
    (h₂ : (⟨2, ![1, N]⟩ : Shape).BroadcastsInDim ⟨2, ![M, N]⟩ ![0, 1]) (v : (⟨1, ![N]⟩ : Shape).Idx → α)
    (r : Fin M) (c : Fin N) :
    broadcastInDim ⟨2, ![M, N]⟩ ![0, 1] h₂ (broadcastInDim ⟨2, ![1, N]⟩ ![1] h₁ v) (ix2 r c) = v (ix1 c) := by
  refine (broadcastInDim_apply ![0, 1] h₂ _ (ix2 r c) (ix2 (0 : Fin 1) c) fun a => ?_).trans
    (broadcastInDim_apply ![1] h₁ v (ix2 (0 : Fin 1) c) (ix1 c) fun a => ?_)
  · match a with
    | ⟨0, _⟩ => rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- An [M] vector laid along the rows of an [M, N] array through an [M, 1] column reads, at (r, c), the vector at r. -/
theorem broadcastInDim_col_apply {α : Type} (h₁ : (⟨1, ![M]⟩ : Shape).BroadcastsInDim ⟨2, ![M, 1]⟩ ![0])
    (h₂ : (⟨2, ![M, 1]⟩ : Shape).BroadcastsInDim ⟨2, ![M, N]⟩ ![0, 1]) (v : (⟨1, ![M]⟩ : Shape).Idx → α)
    (r : Fin M) (c : Fin N) :
    broadcastInDim ⟨2, ![M, N]⟩ ![0, 1] h₂ (broadcastInDim ⟨2, ![M, 1]⟩ ![0] h₁ v) (ix2 r c) = v (ix1 r) := by
  refine (broadcastInDim_apply ![0, 1] h₂ _ (ix2 r c) (ix2 r (0 : Fin 1)) fun a => ?_).trans
    (broadcastInDim_apply ![0] h₁ v (ix2 r (0 : Fin 1)) (ix1 r) fun a => ?_)
  · match a with
    | ⟨0, _⟩ =>
      show r.val = if M = 1 then 0 else r.val
      split
      · have := r.isLt; omega
      · rfl
    | ⟨1, _⟩ => rfl
  · match a with
    | ⟨0, _⟩ =>
      show r.val = if M = 1 then 0 else r.val
      split
      · have := r.isLt; omega
      · rfl

/-- The host's form of the layer: the product against the transposed weight, plus the [N] bias laid along the columns;
    the bias row is the [N] vector cast to [1, N]. -/
theorem addf_dotGeneral_bias (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32) (b : FVec Ideal ⟨1, ![N]⟩ .f32)
    (ht : (⟨2, ![N, K]⟩ : Shape).Transposes [1, 0] ⟨2, ![K, N]⟩)
    (h₁ : (⟨1, ![N]⟩ : Shape).BroadcastsInDim ⟨2, ![1, N]⟩ ![1])
    (h₂ : (⟨2, ![1, N]⟩ : Shape).BroadcastsInDim ⟨2, ![M, N]⟩ ![0, 1])
    (hc : (⟨1, ![N]⟩ : Shape).ShapeCasts ⟨2, ![1, N]⟩) :
    addf (Host.dotGeneral d prec x (transpose ⟨2, ![K, N]⟩ [1, 0] w ht))
        (broadcastInDim ⟨2, ![M, N]⟩ ![0, 1] h₂ (broadcastInDim ⟨2, ![1, N]⟩ ![1] h₁ b))
      = affine x w (shapeCast ⟨2, ![1, N]⟩ b hc) := by
  rw [dotGeneral_transpose d hlc hrc hln hrn hlb hrb]
  funext i
  obtain ⟨r, c, rfl⟩ : ∃ (r : Fin M) (c : Fin N), i = ix2 r c := ⟨i 0, i 1, eq_ix2 i⟩
  rw [addf_apply, broadcastInDim_row_apply, affine_apply, shapeCast_a_1a_apply]
  rfl

end Cert.Lib

end
-- ==== Proof.Region0.lean ====
/-
  The first pallas_call (the node projection h = x · lin1_wᵀ) as ONE whole-array function of the arrays it finds at entry.
  Its grid has ten points; point t stages rows 1000·t … 1000·t + 999 of x (all 128 columns) and the whole weight, and writes
  back the same rows of the output. The body is the block product of the staged rows with the transposed weight, so row r of
  block t of the output is row 1000·t + r of x · wᵀ: a row of the product depends on that row of x only. The ten blocks tile
  the 10000 rows, so the output array ends holding x · wᵀ.
-/
import proofs.«431437_j31559419691084_1_alg».proof.Proof.Gen.KernelIdeal.Frame
import proofs.«431437_j31559419691084_1_alg».proof.Proof.LibDense
import Idealize.ShloMosaic.Lib.Pipeline.Value

set_option maxRecDepth 16384

noncomputable section

namespace Cert.KernelIdeal.Lin1

open Cert.KernelIdeal Cert.KernelIdeal.Gen Cert.Lib
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The body's one payload is the product of the staged rows with the transposed weight. -/
theorem pay (x0 : Vec Ideal S1000x128 .f32) (x2 : Vec Ideal S128x128 .f32) : k0_pay1 (F := Ideal) x0 x2 = mulT x0 x2 := by
  unfold k0_pay1
  exact matmul_trunc_transpose _ rfl rfl rfl rfl rfl rfl none x0 x2 _ _ _

/-- A row block against the whole weight: where the block's row (j 0) is the array's row (i 0) and the columns agree,
    the two products have the same entry. -/
theorem mulT_block (X : FVec Ideal S10000x128 .f32) (Wt : FVec Ideal S128x128 .f32)
    (xb : FVec Ideal S1000x128 .f32) (wb : FVec Ideal S128x128 .f32) (j : S1000x128.Idx) (i : S10000x128.Idx)
    (hx : ∀ k : Fin 128, xb (ix2 (j 0) k) = X (ix2 (i 0) k)) (hw : ∀ k : Fin 128, wb (ix2 (j 1) k) = Wt (ix2 (i 1) k)) :
    mulT xb wb j = mulT X Wt i := by
  show (∑ k : Fin 128, xb (ix2 (j 0) k) * wb (ix2 (j 1) k)) = ∑ k : Fin 128, X (ix2 (i 0) k) * Wt (ix2 (i 1) k)
  exact Finset.sum_congr rfl fun k _ => by rw [hx k, hw k]

/-- The printed index maps over the grid: the row windows sit at block row t, column block 0; the weight at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of x · wᵀ of the arrays as the call finds them. -/
theorem flushed_eq (c : Dev nD) (t : Fin cfg0.N) :
    (dat0 V c).flushed 2 t = ((cfg0.win 2).blk t).view.read (Elt Ideal) (mulT (V c main_arg0) (V c main_arg10)) := by
  show (cfg0.win 2).cut (grid0.coords t) ((dat0 V c).after 2 t) = _
  rw [after0_2]
  unfold out0_2
  rw [View.canon_unit_zero hz]
  simp only [View.ld_unit_zero (S := S1000x128) hz, View.ld_unit_zero (S := S128x128) hz]
  rw [pay]
  obtain ⟨e0, e1, e2, e3, e4, e5⟩ := idx_facts t
  funext j
  show mulT (iblk0 V c 0 t) (iblk0 V c 1 t) j = mulT (V c main_arg0) (V c main_arg10) (((cfg0.win 2).blk t).view.emb j)
  refine mulT_block (V c main_arg0) (V c main_arg10) (iblk0 V c 0 t) (iblk0 V c 1 t) j (((cfg0.win 2).blk t).view.emb j)
    (fun k => ?_) (fun k => ?_)
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 1000 + 1 * (j 0).val = win0_2.index t (0 : Fin 2) * 1000 + 1 * (j 0).val; omega
    | ⟨1, _⟩ => show win0_0.index t (1 : Fin 2) * 128 + 1 * k.val = k.val; omega
  · show V c main_arg10 (((cfg0.win 1).blk t).view.emb (ix2 (j 1) k)) = V c main_arg10 (ix2 ((((cfg0.win 2).blk t).view.emb j) 1) k)
    refine congrArg (V c main_arg10) (funext fun a => Fin.ext ?_)
    match a with
    | ⟨0, _⟩ => show win0_1.index t (0 : Fin 2) * 128 + 1 * (j 1).val = win0_2.index t (1 : Fin 2) * 128 + 1 * (j 1).val; omega
    | ⟨1, _⟩ => show win0_1.index t (1 : Fin 2) * 128 + 1 * k.val = k.val; omega

/-- An index of the output array is in point t's block iff each coordinate is in the block's range on its axis. -/
theorem mem_blk (t : Fin cfg0.N) (i : S10000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v4).slice (win0_2.rect t)).set ↔ _
  rw [View.set_slice_whole, Rect.mem_set_unit]
  exact Iff.rfl

/-- The ten row blocks tile the output: row n lies in block n / 1000. -/
theorem cover (i : S10000x128.Idx) : ∃ t : Fin cfg0.N, (cfg0.win 2).flush t = true ∧ i ∈ ((cfg0.win 2).blk t).view.set := by
  have hi0 : (i 0).val < 10000 := (i 0).isLt
  have hi1 : (i 1).val < 128 := (i 1).isLt
  have hN : cfg0.N = 10 := N_0
  let t : Fin cfg0.N := ⟨(i 0).val / 1000, by rw [hN]; omega⟩
  obtain ⟨e0, e1, e2, e3, e4, e5⟩ := idx_facts t
  have ht : t.val = (i 0).val / 1000 := rfl
  refine ⟨t, flush0_2 t, ?_⟩
  rw [mem_blk]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 128 ≤ (i 1).val ∧ (i 1).val < win0_2.index t (1 : Fin 2) * 128 + 128; omega

/-- The output array after the call: x · wᵀ of the arrays the call found. -/
theorem final (c : Dev nD) : (dat0 V c).arrAt 2 cfg0.N = mulT (V c main_arg0) (V c main_arg10) :=
  (dat0 V c).arrAt_eq_of_cover 2 (mulT (V c main_arg0) (V c main_arg10)) (fun t _ => flushed_eq V c t) cover

end Cert.KernelIdeal.Lin1

end
-- ==== Proof.Message.lean ====
/-
  The per-edge message of the continuous-filter convolution, as one whole-array function over the extended reals.
  For edge e and feature c:
      message (e, c) = (hs (e, c) · W (e, c)) · C (ew e)
  where hs is the source node's projected feature row, W = tanh (ea · w₁ᵀ + b₁) · w₂ᵀ + b₂ is the filter network of the edge's
  radial-basis expansion ea, and C is the cosine cutoff envelope of the edge's length ew:
      C (d) = ½ · (cos (d · (π/5 as a float)) + 1) if d < 5, else 0.
  Row e of the message depends on row e of ea, hs and ew only.
-/
import proofs.«431437_j31559419691084_1_alg».proof.Proof.LibDense

noncomputable section

namespace Cert.Message

open Idealize.ShloMosaic Idealize.ShloMosaic.ValueIdx Cert.Lib

/-- The cosine cutoff envelope of a length d: ½ · (cos (d · κ) + 1) below the cutoff radius 5, zero from it on; κ is the
    single-precision constant nearest π/5, the same word in both programs. -/
def cutoff (d : EReal) : EReal :=
  Scalar.select (FloatOps.cmpf (F := Ideal) (φ := .f32) .olt d (Ideal.ofBits .f32 0x40A00000#32))
    (Ideal.ofBits .f32 0x3F000000#32 * (Ideal.cos (d * Ideal.ofBits .f32 0x3F20D97C#32) + Ideal.ofBits .f32 0x3F800000#32))
    (Ideal.ofBits .f32 0x00000000#32)

variable {E K H N : Nat}

/-- The message array: the source features times the filter, times the edge's cutoff. The edge lengths are an [E, 1] column. -/
def message (ea : FVec Ideal ⟨2, ![E, K]⟩ .f32) (ew : FVec Ideal ⟨2, ![E, 1]⟩ .f32) (hs : FVec Ideal ⟨2, ![E, N]⟩ .f32)
    (w₁ : FVec Ideal ⟨2, ![H, K]⟩ .f32) (b₁ : FVec Ideal ⟨2, ![1, H]⟩ .f32)
    (w₂ : FVec Ideal ⟨2, ![N, H]⟩ .f32) (b₂ : FVec Ideal ⟨2, ![1, N]⟩ .f32) : FVec Ideal ⟨2, ![E, N]⟩ .f32 :=
  fun i => (hs i * affine (tanhA (affine ea w₁ b₁)) w₂ b₂ i) * cutoff (ew (ix2 (i 0) (0 : Fin 1)))

theorem message_apply (ea : FVec Ideal ⟨2, ![E, K]⟩ .f32) (ew : FVec Ideal ⟨2, ![E, 1]⟩ .f32) (hs : FVec Ideal ⟨2, ![E, N]⟩ .f32)
    (w₁ : FVec Ideal ⟨2, ![H, K]⟩ .f32) (b₁ : FVec Ideal ⟨2, ![1, H]⟩ .f32)
    (w₂ : FVec Ideal ⟨2, ![N, H]⟩ .f32) (b₂ : FVec Ideal ⟨2, ![1, N]⟩ .f32) (r : Fin E) (c : Fin N) :
    message ea ew hs w₁ b₁ w₂ b₂ (ix2 r c)
      = (hs (ix2 r c) * affine (tanhA (affine ea w₁ b₁)) w₂ b₂ (ix2 r c)) * cutoff (ew (ix2 r (0 : Fin 1))) := rfl

/-- Row r of the message depends on row r of the radial-basis array, of the source features and of the lengths only. -/
theorem message_row_congr {E' : Nat}
    (ea : FVec Ideal ⟨2, ![E, K]⟩ .f32) (ea' : FVec Ideal ⟨2, ![E', K]⟩ .f32)
    (ew : FVec Ideal ⟨2, ![E, 1]⟩ .f32) (ew' : FVec Ideal ⟨2, ![E', 1]⟩ .f32)
    (hs : FVec Ideal ⟨2, ![E, N]⟩ .f32) (hs' : FVec Ideal ⟨2, ![E', N]⟩ .f32)
    (w₁ : FVec Ideal ⟨2, ![H, K]⟩ .f32) (b₁ : FVec Ideal ⟨2, ![1, H]⟩ .f32)
    (w₂ : FVec Ideal ⟨2, ![N, H]⟩ .f32) (b₂ : FVec Ideal ⟨2, ![1, N]⟩ .f32) (r : Fin E) (r' : Fin E')
    (hea : ∀ k : Fin K, ea (ix2 r k) = ea' (ix2 r' k)) (hew : ew (ix2 r (0 : Fin 1)) = ew' (ix2 r' (0 : Fin 1)))
    (c : Fin N) (hhs : hs (ix2 r c) = hs' (ix2 r' c)) :
    message ea ew hs w₁ b₁ w₂ b₂ (ix2 r c) = message ea' ew' hs' w₁ b₁ w₂ b₂ (ix2 r' c) := by
  rw [message_apply, message_apply, hhs, hew, affine_tanh_affine_row_congr ea ea' w₁ b₁ w₂ b₂ r r' hea c]

/-- The device's form of the cutoff column: the comparison, the cosine and the selection on an [E, 1] column of lengths,
    the constants splat. -/
theorem select_cutoff_column (v : FVec Ideal ⟨2, ![E, 1]⟩ .f32) :
    select (cmpf .olt v (broadcast ⟨2, ![E, 1]⟩ (Scalar.ofBits (F := Ideal) .f32 0x40A00000#32)))
        (mulf (broadcast ⟨2, ![E, 1]⟩ (Scalar.ofBits (F := Ideal) .f32 0x3F000000#32))
          (addf (cos (mulf v (broadcast ⟨2, ![E, 1]⟩ (Scalar.ofBits (F := Ideal) .f32 0x3F20D97C#32))))
            (broadcast ⟨2, ![E, 1]⟩ (Scalar.ofBits (F := Ideal) .f32 0x3F800000#32))))
        (broadcast ⟨2, ![E, 1]⟩ (Scalar.ofBits (F := Ideal) .f32 0x00000000#32))
      = fun y => cutoff (v y) := rfl

end Cert.Message

end
-- ==== Proof.Region1.lean ====
/-
  The second pallas_call (the per-edge filter network, cutoff and modulation of the gathered source features) as ONE
  whole-array function of the arrays it finds at entry. Its grid has 64 points; point t stages rows 10000·t … 10000·t + 9999
  of the radial-basis array, of the length column and of the gathered source features, and the whole filter weights and bias
  rows, and writes back the same rows of the messages. The body computes the message of the staged rows; a message row depends
  on the same row of the three edge arrays only, so row r of block t of the output is row 10000·t + r of the message of the
  whole arrays. The 64 blocks tile the 640000 rows.
-/
import proofs.«431437_j31559419691084_1_alg».proof.Proof.Gen.KernelIdeal.Frame
import proofs.«431437_j31559419691084_1_alg».proof.Proof.Message
import Idealize.ShloMosaic.Lib.Pipeline.Value

set_option maxRecDepth 16384

noncomputable section

namespace Cert.KernelIdeal.Filter

open Cert.KernelIdeal Cert.KernelIdeal.Gen Cert.Lib Cert.Message
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The body's one payload is the message of the staged blocks: the casts to the same shape are the identity, each product of
    narrowed operands into the zero accumulator plus its broadcast bias row is a linear layer, the column arithmetic on the
    lengths is the cutoff, and the cutoff column is broadcast along each row. -/
theorem pay (v0 : Vec Ideal S10000x64 .f32) (v2 : Vec Ideal S128x64 .f32) (v4 : Vec Ideal S1x128 .f32)
    (v11 : Vec Ideal S128x128 .f32) (v13 : Vec Ideal S1x128 .f32) (v20 : Vec Ideal S10000x1 .f32)
    (v33 : Vec Ideal S10000x128 .f32) :
    k1_pay1 (F := Ideal) v0 v2 v4 v11 v13 v20 v33 = message v0 v20 v33 v2 v4 v11 v13 := by
  unfold k1_pay1
  dsimp only
  simp only [shapeCast_self]
  rw [addf_matmul_bias _ rfl rfl rfl rfl rfl rfl none v0 v2 v4, tanh_eq_tanhA,
    addf_matmul_bias _ rfl rfl rfl rfl rfl rfl none (tanhA (affine v0 v2 v4)) v11 v13, select_cutoff_column v20]
  funext i
  obtain ⟨r, c, rfl⟩ : ∃ (r : Fin 10000) (c : Fin 128), i = ix2 r c := ⟨i 0, i 1, eq_ix2 i⟩
  rw [mulf_apply, mulf_apply, broadcastTo_a1_ab_apply, message_apply]

/-- Row blocks through the message against the whole arrays: where the blocks' row (j 0) is the arrays' row (i 0) and the
    two indices name the same column, the messages agree. -/
theorem message_block (EA : FVec Ideal S640000x64 .f32) (EW : FVec Ideal S640000x1 .f32) (HS : FVec Ideal S640000x128 .f32)
    (W₁ : FVec Ideal S128x64 .f32) (B₁ : FVec Ideal S1x128 .f32) (W₂ : FVec Ideal S128x128 .f32) (B₂ : FVec Ideal S1x128 .f32)
    (ea : FVec Ideal S10000x64 .f32) (ew : FVec Ideal S10000x1 .f32) (hs : FVec Ideal S10000x128 .f32)
    (w₁ : FVec Ideal S128x64 .f32) (b₁ : FVec Ideal S1x128 .f32) (w₂ : FVec Ideal S128x128 .f32) (b₂ : FVec Ideal S1x128 .f32)
    (hw₁ : w₁ = W₁) (hb₁ : b₁ = B₁) (hw₂ : w₂ = W₂) (hb₂ : b₂ = B₂)
    (j : S10000x128.Idx) (i : S640000x128.Idx)
    (hea : ∀ k : Fin 64, ea (ix2 (n0 := 10000) (j 0) k) = EA (ix2 (n0 := 640000) (i 0) k))
    (hew : ew (ix2 (n0 := 10000) (j 0) (0 : Fin 1)) = EW (ix2 (n0 := 640000) (i 0) (0 : Fin 1)))
    (hhs : ∀ k : Fin 128, hs (ix2 (n0 := 10000) (j 0) k) = HS (ix2 (n0 := 640000) (i 0) k))
    (hc : (j 1).val = (i 1).val) :
    message ea ew hs w₁ b₁ w₂ b₂ j = message EA EW HS W₁ B₁ W₂ B₂ i := by
  subst hw₁ hb₁ hw₂ hb₂
  have hj : j = ix2 (n0 := 10000) (n1 := 128) (j 0) (j 1) := eq_ix2 j
  have hi : i = ix2 (n0 := 640000) (n1 := 128) (i 0) (j 1) := by
    refine (eq_ix2 i).trans (congrArg (ix2 (n0 := 640000) (n1 := 128) (i 0)) (Fin.ext hc.symm))
  rw [hj, hi]
  exact message_row_congr ea EA ew EW hs HS w₁ b₁ w₂ b₂ (j 0) (i 0) hea hew (j 1) (hhs (j 1))

/-- The printed index maps over the grid: the four row windows sit at block row t, column block 0; the weights and bias
    rows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- A window staged whole at block (0, 0) holds its whole array. -/
theorem blk3 (c : Dev nD) (t : Fin cfg1.N) : iblk1 V c 3 t = V c main_arg6 := by
  obtain ⟨-, -, -, -, -, -, e6, e7, -⟩ := idx_facts t
  funext y
  show V c main_arg6 (((cfg1.win 3).blk t).view.emb y) = V c main_arg6 y
  refine congrArg (V c main_arg6) (funext fun a => Fin.ext ?_)
  match a with
  | ⟨0, _⟩ => show win1_3.index t (0 : Fin 2) * 128 + 1 * (y 0).val = (y 0).val; omega
  | ⟨1, _⟩ => show win1_3.index t (1 : Fin 2) * 64 + 1 * (y 1).val = (y 1).val; omega
theorem blk4 (c : Dev nD) (t : Fin cfg1.N) : iblk1 V c 4 t = V c main_v7 := by
  obtain ⟨-, -, -, -, -, -, -, -, e8, e9, -⟩ := idx_facts t
  funext y
  show V c main_v7 (((cfg1.win 4).blk t).view.emb y) = V c main_v7 y
  refine congrArg (V c main_v7) (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega
theorem blk5 (c : Dev nD) (t : Fin cfg1.N) : iblk1 V c 5 t = V c main_arg8 := by
  obtain ⟨-, -, -, -, -, -, -, -, -, -, e10, e11, -⟩ := idx_facts t
  funext y
  show V c main_arg8 (((cfg1.win 5).blk t).view.emb y) = V c main_arg8 y
  refine congrArg (V c main_arg8) (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega
theorem blk6 (c : Dev nD) (t : Fin cfg1.N) : iblk1 V c 6 t = V c main_v8 := by
  obtain ⟨-, -, -, -, -, -, -, -, -, -, -, -, e12, e13, -⟩ := idx_facts t
  funext y
  show V c main_v8 (((cfg1.win 6).blk t).view.emb y) = V c main_v8 y
  refine congrArg (V c main_v8) (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- The whole-array function: the message of the arrays as the call finds them. -/
abbrev G (c : Dev nD) : FVec Ideal S640000x128 .f32 :=
  message (V c main_arg3) (V c main_v6) (V c main_v5) (V c main_arg6) (V c main_v7) (V c main_arg8) (V c main_v8)

/-- What point t writes back is block t of the message of the whole arrays. -/
theorem flushed_eq (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S10000x64) hz, View.ld_unit_zero (S := S10000x1) hz, View.ld_unit_zero (S := S10000x128) hz,
    View.ld_unit_zero (S := S128x64) hz, View.ld_unit_zero (S := S128x128) hz, View.ld_unit_zero (S := S1x128) hz]
  rw [pay]
  obtain ⟨e0, e1, e2, e3, e4, e5, -, -, -, -, -, -, -, -, e14, e15⟩ := idx_facts t
  funext j
  show message (iblk1 V c 0 t) (iblk1 V c 1 t) (iblk1 V c 2 t) (iblk1 V c 3 t) (iblk1 V c 4 t) (iblk1 V c 5 t) (iblk1 V c 6 t) j
    = G V c (((cfg1.win 7).blk t).view.emb j)
  refine message_block (V c main_arg3) (V c main_v6) (V c main_v5) (V c main_arg6) (V c main_v7) (V c main_arg8) (V c main_v8)
    (iblk1 V c 0 t) (iblk1 V c 1 t) (iblk1 V c 2 t) (iblk1 V c 3 t) (iblk1 V c 4 t) (iblk1 V c 5 t) (iblk1 V c 6 t)
    (blk3 V c t) (blk4 V c t) (blk5 V c t) (blk6 V c t) j (((cfg1.win 7).blk t).view.emb j) (fun k => ?_) ?_ (fun k => ?_) ?_
  · show V c main_arg3 (((cfg1.win 0).blk t).view.emb (ix2 (n0 := 10000) (j 0) k))
      = V c main_arg3 (ix2 (n0 := 640000) ((((cfg1.win 7).blk t).view.emb j) 0) k)
    refine congrArg (V c main_arg3) (funext fun a => Fin.ext ?_)
    match a with
    | ⟨0, _⟩ => show win1_0.index t (0 : Fin 2) * 10000 + 1 * (j 0).val = win1_7.index t (0 : Fin 2) * 10000 + 1 * (j 0).val; omega
    | ⟨1, _⟩ => show win1_0.index t (1 : Fin 2) * 64 + 1 * k.val = k.val; omega
  · show V c main_v6 (((cfg1.win 1).blk t).view.emb (ix2 (n0 := 10000) (j 0) (0 : Fin 1)))
      = V c main_v6 (ix2 (n0 := 640000) ((((cfg1.win 7).blk t).view.emb j) 0) (0 : Fin 1))
    refine congrArg (V c main_v6) (funext fun a => Fin.ext ?_)
    match a with
    | ⟨0, _⟩ => show win1_1.index t (0 : Fin 2) * 10000 + 1 * (j 0).val = win1_7.index t (0 : Fin 2) * 10000 + 1 * (j 0).val; omega
    | ⟨1, _⟩ => show win1_1.index t (1 : Fin 2) * 1 + 1 * 0 = 0; omega
  · show V c main_v5 (((cfg1.win 2).blk t).view.emb (ix2 (n0 := 10000) (j 0) k))
      = V c main_v5 (ix2 (n0 := 640000) ((((cfg1.win 7).blk t).view.emb j) 0) k)
    refine congrArg (V c main_v5) (funext fun a => Fin.ext ?_)
    match a with
    | ⟨0, _⟩ => show win1_2.index t (0 : Fin 2) * 10000 + 1 * (j 0).val = win1_7.index t (0 : Fin 2) * 10000 + 1 * (j 0).val; omega
    | ⟨1, _⟩ => show win1_2.index t (1 : Fin 2) * 128 + 1 * k.val = k.val; omega
  · show (j 1).val = win1_7.index t (1 : Fin 2) * 128 + 1 * (j 1).val
    omega

/-- An index of the output array is in point t's block iff each coordinate is in the block's range on its axis. -/
theorem mem_blk (t : Fin cfg1.N) (i : S640000x128.Idx) :
    i ∈ ((cfg1.win 7).blk t).view.set ↔ ∀ a : Fin 2, win1_7.index t a * S10000x128.size a ≤ (i a).val ∧ (i a).val < win1_7.index t a * S10000x128.size a + S10000x128.size a := by
  show i ∈ ((View.whole main_v9).slice (win1_7.rect t)).set ↔ _
  rw [View.set_slice_whole, Rect.mem_set_unit]
  exact Iff.rfl

/-- The 64 row blocks tile the output: row n lies in block n / 10000. -/
theorem cover (i : S640000x128.Idx) : ∃ t : Fin cfg1.N, (cfg1.win 7).flush t = true ∧ i ∈ ((cfg1.win 7).blk t).view.set := by
  have hi0 : (i 0).val < 640000 := (i 0).isLt
  have hi1 : (i 1).val < 128 := (i 1).isLt
  have hN : cfg1.N = 64 := N_1
  let t : Fin cfg1.N := ⟨(i 0).val / 10000, by rw [hN]; omega⟩
  obtain ⟨-, -, -, -, -, -, -, -, -, -, -, -, -, -, e14, e15⟩ := idx_facts t
  have ht : t.val = (i 0).val / 10000 := rfl
  refine ⟨t, flush1_7 t, ?_⟩
  rw [mem_blk]
  intro a
  match a with
  | ⟨0, _⟩ => show win1_7.index t (0 : Fin 2) * 10000 ≤ (i 0).val ∧ (i 0).val < win1_7.index t (0 : Fin 2) * 10000 + 10000; omega
  | ⟨1, _⟩ => show win1_7.index t (1 : Fin 2) * 128 ≤ (i 1).val ∧ (i 1).val < win1_7.index t (1 : Fin 2) * 128 + 128; omega

/-- The message array after the call: the message of the arrays the call found. -/
theorem final (c : Dev nD) : (dat1 V c).arrAt 7 cfg1.N = G V c :=
  (dat1 V c).arrAt_eq_of_cover 7 (G V c) (fun t _ => flushed_eq V c t) cover

end Cert.KernelIdeal.Filter

end
-- ==== Proof.Region2.lean ====
/-
  The third pallas_call (the epilogue out = tanh (agg · lin2_wᵀ + lin2_b) · blk_wᵀ + blk_b) as ONE whole-array function of
  the arrays it finds at entry. Its grid has ten points; point t stages rows 1000·t … 1000·t + 999 of the aggregated messages
  and the two whole weights and bias rows, and writes back the same rows of the output. The body is a two-layer network
  (layer, tanh, layer) of the staged rows; such a network is row-local, so row r of block t of the output is row 1000·t + r
  of the network applied to the whole array. The ten blocks tile the 10000 rows.
-/
import proofs.«431437_j31559419691084_1_alg».proof.Proof.Gen.KernelIdeal.Frame
import proofs.«431437_j31559419691084_1_alg».proof.Proof.LibDense
import Idealize.ShloMosaic.Lib.Pipeline.Value

set_option maxRecDepth 16384

noncomputable section

namespace Cert.KernelIdeal.Epilogue

open Cert.KernelIdeal Cert.KernelIdeal.Gen Cert.Lib
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The body's one payload is the two-layer network of the staged blocks: the casts to the same shape are the identity,
    each product of narrowed operands into the zero accumulator plus its broadcast bias row is a linear layer. -/
theorem pay (v0 : Vec Ideal S1000x128 .f32) (v3 : Vec Ideal S128x128 .f32) (v5 : Vec Ideal S1x128 .f32)
    (v12 : Vec Ideal S128x128 .f32) (v14 : Vec Ideal S1x128 .f32) :
    k2_pay1 (F := Ideal) v0 v3 v5 v12 v14 = affine (tanhA (affine v0 v3 v5)) v12 v14 := by
  unfold k2_pay1
  dsimp only
  simp only [shapeCast_self]
  rw [addf_matmul_bias _ rfl rfl rfl rfl rfl rfl none v0 v3 v5, tanh_eq_tanhA,
    addf_matmul_bias _ rfl rfl rfl rfl rfl rfl none (tanhA (affine v0 v3 v5)) v12 v14]

/-- A row block through the network against the whole array: where the block's row (j 0) is the array's row (i 0) and the
    two indices name the same column, the outputs agree. -/
theorem network_block (A : FVec Ideal S10000x128 .f32) (W₁ W₂ : FVec Ideal S128x128 .f32) (B₁ B₂ : FVec Ideal S1x128 .f32)
    (xb : FVec Ideal S1000x128 .f32) (w₁ w₂ : FVec Ideal S128x128 .f32) (b₁ b₂ : FVec Ideal S1x128 .f32)
    (hw₁ : w₁ = W₁) (hb₁ : b₁ = B₁) (hw₂ : w₂ = W₂) (hb₂ : b₂ = B₂)
    (j : S1000x128.Idx) (i : S10000x128.Idx)
    (hx : ∀ k : Fin 128, xb (ix2 (n0 := 1000) (j 0) k) = A (ix2 (n0 := 10000) (i 0) k)) (hc : (j 1).val = (i 1).val) :
    affine (tanhA (affine xb w₁ b₁)) w₂ b₂ j = affine (tanhA (affine A W₁ B₁)) W₂ B₂ i := by
  subst hw₁ hb₁ hw₂ hb₂
  have hj : j = ix2 (n0 := 1000) (n1 := 128) (j 0) (j 1) := eq_ix2 j
  have hi : i = ix2 (n0 := 10000) (n1 := 128) (i 0) (j 1) := by
    refine (eq_ix2 i).trans (congrArg (ix2 (n0 := 10000) (n1 := 128) (i 0)) (Fin.ext hc.symm))
  rw [hj, hi]
  exact affine_tanh_affine_row_congr xb A w₁ b₁ w₂ b₂ (j 0) (i 0) hx (j 1)

/-- The printed index maps over the grid: the row windows sit at block row t, column block 0; the weights and bias rows
    at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- A window staged whole at block (0, 0) holds its whole array. -/
theorem blk1 (c : Dev nD) (t : Fin cfg2.N) : iblk2 V c 1 t = V c main_arg11 := by
  obtain ⟨-, -, e2, e3, -⟩ := idx_facts t
  funext y
  show V c main_arg11 (((cfg2.win 1).blk t).view.emb y) = V c main_arg11 y
  refine congrArg (V c main_arg11) (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega
theorem blk2 (c : Dev nD) (t : Fin cfg2.N) : iblk2 V c 2 t = V c main_v13 := by
  obtain ⟨-, -, -, -, e4, e5, -⟩ := idx_facts t
  funext y
  show V c main_v13 (((cfg2.win 2).blk t).view.emb y) = V c main_v13 y
  refine congrArg (V c main_v13) (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega
theorem blk3 (c : Dev nD) (t : Fin cfg2.N) : iblk2 V c 3 t = V c main_arg13 := by
  obtain ⟨-, -, -, -, -, -, e6, e7, -⟩ := idx_facts t
  funext y
  show V c main_arg13 (((cfg2.win 3).blk t).view.emb y) = V c main_arg13 y
  refine congrArg (V c main_arg13) (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega
theorem blk4 (c : Dev nD) (t : Fin cfg2.N) : iblk2 V c 4 t = V c main_v14 := by
  obtain ⟨-, -, -, -, -, -, -, -, e8, e9, -⟩ := idx_facts t
  funext y
  show V c main_v14 (((cfg2.win 4).blk t).view.emb y) = V c main_v14 y
  refine congrArg (V c main_v14) (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- The whole-array function: the network of the arrays as the call finds them. -/
abbrev G (c : Dev nD) : FVec Ideal S10000x128 .f32 :=
  affine (tanhA (affine (V c main_v12) (V c main_arg11) (V c main_v13))) (V c main_arg13) (V c main_v14)

/-- What point t writes back is block t of the network applied to the whole array. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S1000x128) hz, View.ld_unit_zero (S := S128x128) hz, View.ld_unit_zero (S := S1x128) hz]
  rw [pay]
  obtain ⟨e0, e1, -, -, -, -, -, -, -, -, e10, e11⟩ := idx_facts t
  funext j
  show affine (tanhA (affine (iblk2 V c 0 t) (iblk2 V c 1 t) (iblk2 V c 2 t))) (iblk2 V c 3 t) (iblk2 V c 4 t) j
    = G V c (((cfg2.win 5).blk t).view.emb j)
  refine network_block (V c main_v12) (V c main_arg11) (V c main_arg13) (V c main_v13) (V c main_v14)
    (iblk2 V c 0 t) (iblk2 V c 1 t) (iblk2 V c 3 t) (iblk2 V c 2 t) (iblk2 V c 4 t)
    (blk1 V c t) (blk2 V c t) (blk3 V c t) (blk4 V c t) j (((cfg2.win 5).blk t).view.emb j) (fun k => ?_) ?_
  · show V c main_v12 (((cfg2.win 0).blk t).view.emb (ix2 (n0 := 1000) (j 0) k))
      = V c main_v12 (ix2 (n0 := 10000) ((((cfg2.win 5).blk t).view.emb j) 0) k)
    refine congrArg (V c main_v12) (funext fun a => Fin.ext ?_)
    match a with
    | ⟨0, _⟩ => show win2_0.index t (0 : Fin 2) * 1000 + 1 * (j 0).val = win2_5.index t (0 : Fin 2) * 1000 + 1 * (j 0).val; omega
    | ⟨1, _⟩ => show win2_0.index t (1 : Fin 2) * 128 + 1 * k.val = k.val; omega
  · show (j 1).val = win2_5.index t (1 : Fin 2) * 128 + 1 * (j 1).val
    omega

/-- An index of the output array is in point t's block iff each coordinate is in the block's range on its axis. -/
theorem mem_blk (t : Fin cfg2.N) (i : S10000x128.Idx) :
    i ∈ ((cfg2.win 5).blk t).view.set ↔ ∀ a : Fin 2, win2_5.index t a * S1000x128.size a ≤ (i a).val ∧ (i a).val < win2_5.index t a * S1000x128.size a + S1000x128.size a := by
  show i ∈ ((View.whole main_v15).slice (win2_5.rect t)).set ↔ _
  rw [View.set_slice_whole, Rect.mem_set_unit]
  exact Iff.rfl

/-- The ten row blocks tile the output: row n lies in block n / 1000. -/
theorem cover (i : S10000x128.Idx) : ∃ t : Fin cfg2.N, (cfg2.win 5).flush t = true ∧ i ∈ ((cfg2.win 5).blk t).view.set := by
  have hi0 : (i 0).val < 10000 := (i 0).isLt
  have hi1 : (i 1).val < 128 := (i 1).isLt
  have hN : cfg2.N = 10 := N_2
  let t : Fin cfg2.N := ⟨(i 0).val / 1000, by rw [hN]; omega⟩
  obtain ⟨-, -, -, -, -, -, -, -, -, -, e10, e11⟩ := idx_facts t
  have ht : t.val = (i 0).val / 1000 := rfl
  refine ⟨t, flush2_5 t, ?_⟩
  rw [mem_blk]
  intro a
  match a with
  | ⟨0, _⟩ => show win2_5.index t (0 : Fin 2) * 1000 ≤ (i 0).val ∧ (i 0).val < win2_5.index t (0 : Fin 2) * 1000 + 1000; omega
  | ⟨1, _⟩ => show win2_5.index t (1 : Fin 2) * 128 ≤ (i 1).val ∧ (i 1).val < win2_5.index t (1 : Fin 2) * 128 + 128; omega

/-- The output array after the call: the network of the arrays the call found. -/
theorem final (c : Dev nD) : (dat2 V c).arrAt 5 cfg2.N = G V c :=
  (dat2 V c).arrAt_eq_of_cover 5 (G V c) (fun t _ => flushed_eq V c t) cover

end Cert.KernelIdeal.Epilogue

end
-- ==== Proof.HostReads.lean ====
/-
  The kernel program's buffers at the boundaries between its stretches of host operations and its three pallas_calls.
    * An argument array is written by nothing, so at every boundary it holds its launch contents.
    * The two rows of edge_index (sources and destinations) are sliced out once, before the first call, and kept.
    * Between the first and second call the program takes the projected rows by the wrapped source indices, with fill, and
      casts the length vector to a column and the two filter biases to rows.
    * Between the second and third call it scatter-adds the message rows into the destination rows, from zeros, and casts the
      two remaining biases to rows.
  Each pallas_call leaves in its output array the whole-array function of its entry contents (the three region modules), so
  the result array ends as: the two-layer network of the scatter-added messages of the taken rows of x · lin1_wᵀ.
-/
import proofs.«431437_j31559419691084_1_alg».proof.Proof.Gen.KernelIdeal.Frame
import proofs.«431437_j31559419691084_1_alg».proof.Proof.Take
import proofs.«431437_j31559419691084_1_alg».proof.Proof.Region0
import proofs.«431437_j31559419691084_1_alg».proof.Proof.Region1
import proofs.«431437_j31559419691084_1_alg».proof.Proof.Region2
import Idealize.ShloMosaic.Lib.StableHlo.Run

set_option maxRecDepth 16384

noncomputable section

namespace Cert.KernelIdeal.Reads

open Cert.KernelIdeal Cert.KernelIdeal.Gen Cert.KernelIdeal.Take Cert.Lib Cert.Message
open Idealize.ShloMosaic Idealize.ShloMosaic.TcCoe Idealize.SL.Sem Idealize.ShloMosaic.StableHlo

/-- The sources row and the destinations row of edge_index, as [E] vectors. -/
def srcOf (x1 : IVec S2x640000 32) : IVec S640000 32 :=
  shapeCast S640000 (extractStridedSlice S1x640000 ![0, 0] x1 slices_S2x640000_S1x640000_0_0) shapeCasts_S1x640000_S640000
def dstOf (x1 : IVec S2x640000 32) : IVec S640000 32 :=
  shapeCast S640000 (extractStridedSlice S1x640000 ![1, 0] x1 slices_S2x640000_S1x640000_1_0) shapeCasts_S1x640000_S640000

/-- No operation of the named stretch writes the buffer in the goal: each operation writes its one result, a different
    reference. -/
local macro "not_written " ops:ident : tactic => `(tactic| (
  refine List.forall_iff_forall_mem.mp ?_
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

section Any

variable {F : FTy → Type} [FloatOps F]
variable (m : (ℓ : Loc nD τ sig) → Buf (Elt F) ℓ) (ρ : Dev nD → PrngReg)

/-! ## A buffer nothing writes holds its launch contents, boundary by boundary -/

theorem keptW1 (c : Dev nD) (b : Ref sig .tc)
    (h0 : ∀ op ∈ (hostOps0 : List (HloOp τ sig (Elt F))), Proc.devRef .tc b ∉ op.writes) :
    W1 m ρ c (Proc.devRef .tc b) = m ((c : Thread nD τ).loc b) :=
  (StableHlo.after_of_forall_not_mem (b := Proc.devRef .tc b) _ _ h0).trans rfl

theorem keptW2 (c : Dev nD) (b : Ref sig .tc)
    (h0 : ∀ op ∈ (hostOps0 : List (HloOp τ sig (Elt F))), Proc.devRef .tc b ∉ op.writes)
    (n0 : ∀ w, Pipeline.arrRef spec0 w ≠ b) :
    W2 m ρ c (Proc.devRef .tc b) = m ((c : Thread nD τ).loc b) :=
  (W2_of_ne m ρ c b n0).trans (keptW1 m ρ c b h0)

theorem keptW3 (c : Dev nD) (b : Ref sig .tc)
    (h0 : ∀ op ∈ (hostOps0 : List (HloOp τ sig (Elt F))), Proc.devRef .tc b ∉ op.writes)
    (n0 : ∀ w, Pipeline.arrRef spec0 w ≠ b)
    (h1 : ∀ op ∈ (hostOps1 : List (HloOp τ sig (Elt F))), Proc.devRef .tc b ∉ op.writes) :
    W3 m ρ c (Proc.devRef .tc b) = m ((c : Thread nD τ).loc b) :=
  (StableHlo.after_of_forall_not_mem (b := Proc.devRef .tc b) _ _ h1).trans (keptW2 m ρ c b h0 n0)

theorem keptW4 (c : Dev nD) (b : Ref sig .tc)
    (h0 : ∀ op ∈ (hostOps0 : List (HloOp τ sig (Elt F))), Proc.devRef .tc b ∉ op.writes)
    (n0 : ∀ w, Pipeline.arrRef spec0 w ≠ b)
    (h1 : ∀ op ∈ (hostOps1 : List (HloOp τ sig (Elt F))), Proc.devRef .tc b ∉ op.writes)
    (h11 : ∀ op ∈ (hostOps1_1 : List (HloOp τ sig (Elt F))), Proc.devRef .tc b ∉ op.writes) :
    W4 m ρ c (Proc.devRef .tc b) = m ((c : Thread nD τ).loc b) :=
  (StableHlo.after_of_forall_not_mem (b := Proc.devRef .tc b) _ _ h11).trans (keptW3 m ρ c b h0 n0 h1)

theorem keptW5 (c : Dev nD) (b : Ref sig .tc)
    (h0 : ∀ op ∈ (hostOps0 : List (HloOp τ sig (Elt F))), Proc.devRef .tc b ∉ op.writes)
    (n0 : ∀ w, Pipeline.arrRef spec0 w ≠ b)
    (h1 : ∀ op ∈ (hostOps1 : List (HloOp τ sig (Elt F))), Proc.devRef .tc b ∉ op.writes)
    (h11 : ∀ op ∈ (hostOps1_1 : List (HloOp τ sig (Elt F))), Proc.devRef .tc b ∉ op.writes)
    (n1 : ∀ w, Pipeline.arrRef spec1 w ≠ b) :
    W5 m ρ c (Proc.devRef .tc b) = m ((c : Thread nD τ).loc b) :=
  (W5_of_ne m ρ c b n1).trans (keptW4 m ρ c b h0 n0 h1 h11)

theorem keptW6 (c : Dev nD) (b : Ref sig .tc)
    (h0 : ∀ op ∈ (hostOps0 : List (HloOp τ sig (Elt F))), Proc.devRef .tc b ∉ op.writes)
    (n0 : ∀ w, Pipeline.arrRef spec0 w ≠ b)
    (h1 : ∀ op ∈ (hostOps1 : List (HloOp τ sig (Elt F))), Proc.devRef .tc b ∉ op.writes)
    (h11 : ∀ op ∈ (hostOps1_1 : List (HloOp τ sig (Elt F))), Proc.devRef .tc b ∉ op.writes)
    (n1 : ∀ w, Pipeline.arrRef spec1 w ≠ b)
    (h2 : ∀ op ∈ (hostOps2 : List (HloOp τ sig (Elt F))), Proc.devRef .tc b ∉ op.writes) :
    W6 m ρ c (Proc.devRef .tc b) = m ((c : Thread nD τ).loc b) :=
  (StableHlo.after_of_forall_not_mem (b := Proc.devRef .tc b) _ _ h2).trans (keptW5 m ρ c b h0 n0 h1 h11 n1)

/-! ## The first call's entry: the arguments, and the two rows of edge_index -/

theorem V1_arg0 (c : Dev nD) : V1 m ρ c main_arg0 = m ((c : Thread nD τ).loc main_arg0) :=
  keptW1 m ρ c main_arg0 (by not_written hostOps0)
theorem V1_arg10 (c : Dev nD) : V1 m ρ c main_arg10 = m ((c : Thread nD τ).loc main_arg10) :=
  keptW1 m ρ c main_arg10 (by not_written hostOps0)

theorem W1_v1 (c : Dev nD) : W1 m ρ c (Proc.devRef .tc main_v1) = srcOf (m ((c : Thread nD τ).loc main_arg1)) := by
  show StableHlo.after hostOps0 (W0 m ρ c) (Proc.devRef .tc main_v1) = _
  after_results <;> rfl
theorem W1_v3 (c : Dev nD) : W1 m ρ c (Proc.devRef .tc main_v3) = dstOf (m ((c : Thread nD τ).loc main_arg1)) := by
  show StableHlo.after hostOps0 (W0 m ρ c) (Proc.devRef .tc main_v3) = _
  after_results <;> rfl

/-- The sources row is still there after the first call. -/
theorem W2_v1 (c : Dev nD) : W2 m ρ c (Proc.devRef .tc main_v1) = srcOf (m ((c : Thread nD τ).loc main_arg1)) :=
  (W2_of_ne m ρ c main_v1 (by decide)).trans (W1_v1 m ρ c)

/-- The destinations row is still there after the second call. -/
theorem W5_v3 (c : Dev nD) : W5 m ρ c (Proc.devRef .tc main_v3) = dstOf (m ((c : Thread nD τ).loc main_arg1)) :=
  (W5_of_ne m ρ c main_v3 (by decide)).trans
    ((StableHlo.after_of_forall_not_mem (b := Proc.devRef .tc main_v3) _ _ (by not_written hostOps1_1)).trans
      ((StableHlo.after_of_forall_not_mem (b := Proc.devRef .tc main_v3) _ _ (by not_written hostOps1)).trans
        ((W2_of_ne m ρ c main_v3 (by decide)).trans (W1_v3 m ρ c))))

/-! ## The second call's entry -/

theorem V4_arg3 (c : Dev nD) : V4 m ρ c main_arg3 = m ((c : Thread nD τ).loc main_arg3) :=
  keptW4 m ρ c main_arg3 (by not_written hostOps0) (by decide) (by not_written hostOps1) (by not_written hostOps1_1)
theorem V4_arg6 (c : Dev nD) : V4 m ρ c main_arg6 = m ((c : Thread nD τ).loc main_arg6) :=
  keptW4 m ρ c main_arg6 (by not_written hostOps0) (by decide) (by not_written hostOps1) (by not_written hostOps1_1)
theorem V4_arg8 (c : Dev nD) : V4 m ρ c main_arg8 = m ((c : Thread nD τ).loc main_arg8) :=
  keptW4 m ρ c main_arg8 (by not_written hostOps0) (by decide) (by not_written hostOps1) (by not_written hostOps1_1)

/-- The length vector as a column. -/
theorem V4_v6 (c : Dev nD) :
    V4 m ρ c main_v6 = shapeCast S640000x1 (m ((c : Thread nD τ).loc main_arg2)) shapeCasts_S640000_S640000x1 := by
  have e : V4 m ρ c main_v6 = shapeCast S640000x1 (W3 m ρ c (Proc.devRef .tc main_arg2)) shapeCasts_S640000_S640000x1 := by
    show StableHlo.after hostOps1_1 (W3 m ρ c) (Proc.devRef .tc main_v6) = _
    after_results <;> rfl
  rw [e, keptW3 m ρ c main_arg2 (by not_written hostOps0) (by decide) (by not_written hostOps1)]
/-- The two filter biases as rows. -/
theorem V4_v7 (c : Dev nD) :
    V4 m ρ c main_v7 = shapeCast S1x128 (m ((c : Thread nD τ).loc main_arg7)) shapeCasts_S128_S1x128 := by
  have e : V4 m ρ c main_v7 = shapeCast S1x128 (W3 m ρ c (Proc.devRef .tc main_arg7)) shapeCasts_S128_S1x128 := by
    show StableHlo.after hostOps1_1 (W3 m ρ c) (Proc.devRef .tc main_v7) = _
    after_results <;> rfl
  rw [e, keptW3 m ρ c main_arg7 (by not_written hostOps0) (by decide) (by not_written hostOps1)]
theorem V4_v8 (c : Dev nD) :
    V4 m ρ c main_v8 = shapeCast S1x128 (m ((c : Thread nD τ).loc main_arg9)) shapeCasts_S128_S1x128 := by
  have e : V4 m ρ c main_v8 = shapeCast S1x128 (W3 m ρ c (Proc.devRef .tc main_arg9)) shapeCasts_S128_S1x128 := by
    show StableHlo.after hostOps1_1 (W3 m ρ c) (Proc.devRef .tc main_v8) = _
    after_results <;> rfl
  rw [e, keptW3 m ρ c main_arg9 (by not_written hostOps0) (by decide) (by not_written hostOps1)]

set_option maxHeartbeats 4000000 in
set_option maxRecDepth 131072 in
/-- The gathered source features: the take with fill of the first call's output by the sources row. -/
theorem V4_v5 (c : Dev nD) :
    V4 m ρ c main_v5 = takeFill (W2 m ρ c (Proc.devRef .tc main_v4)) (W2 m ρ c (Proc.devRef .tc main_v1)) := by
  have e : V4 m ρ c main_v5 = W3 m ρ c (Proc.devRef .tc main_v5) :=
    StableHlo.after_of_forall_not_mem (b := Proc.devRef .tc main_v5) _ _ (by not_written hostOps1_1)
  rw [e]
  unfold takeFill inRange idxCol wrapIdx
  show StableHlo.after hostOps1 (W2 m ρ c) (Proc.devRef .tc main_v5) = _
  after_results_simp
  simp only [cast_eq]

/-! ## The third call's entry -/

theorem V6_arg11 (c : Dev nD) : V6 m ρ c main_arg11 = m ((c : Thread nD τ).loc main_arg11) :=
  keptW6 m ρ c main_arg11 (by not_written hostOps0) (by decide) (by not_written hostOps1) (by not_written hostOps1_1) (by decide)
    (by not_written hostOps2)
theorem V6_arg13 (c : Dev nD) : V6 m ρ c main_arg13 = m ((c : Thread nD τ).loc main_arg13) :=
  keptW6 m ρ c main_arg13 (by not_written hostOps0) (by decide) (by not_written hostOps1) (by not_written hostOps1_1) (by decide)
    (by not_written hostOps2)

/-- The two remaining biases as rows. -/
theorem V6_v13 (c : Dev nD) :
    V6 m ρ c main_v13 = shapeCast S1x128 (m ((c : Thread nD τ).loc main_arg12)) shapeCasts_S128_S1x128 := by
  have e : V6 m ρ c main_v13 = shapeCast S1x128 (W5 m ρ c (Proc.devRef .tc main_arg12)) shapeCasts_S128_S1x128 := by
    show StableHlo.after hostOps2 (W5 m ρ c) (Proc.devRef .tc main_v13) = _
    after_results <;> rfl
  rw [e, keptW5 m ρ c main_arg12 (by not_written hostOps0) (by decide) (by not_written hostOps1) (by not_written hostOps1_1)
    (by decide)]
theorem V6_v14 (c : Dev nD) :
    V6 m ρ c main_v14 = shapeCast S1x128 (m ((c : Thread nD τ).loc main_arg14)) shapeCasts_S128_S1x128 := by
  have e : V6 m ρ c main_v14 = shapeCast S1x128 (W5 m ρ c (Proc.devRef .tc main_arg14)) shapeCasts_S128_S1x128 := by
    show StableHlo.after hostOps2 (W5 m ρ c) (Proc.devRef .tc main_v14) = _
    after_results <;> rfl
  rw [e, keptW5 m ρ c main_arg14 (by not_written hostOps0) (by decide) (by not_written hostOps1) (by not_written hostOps1_1)
    (by decide)]

/-- The aggregated messages: the second call's output rows scatter-added into their destination rows, from zeros. -/
theorem V6_v12 (c : Dev nD) :
    V6 m ρ c main_v12 = Host.scatterAdd scatter_S10000x128_S640000x1_S640000x128_1_0_0_1
      (broadcastInDim S10000x128 ![] bcast_S_S10000x128 (constant S_ .f32 0x00000000#32))
      (broadcastInDim S640000x1 ![0] bcast_S640000_S640000x1_0 (dstOf (m ((c : Thread nD τ).loc main_arg1))))
      (W5 m ρ c (Proc.devRef .tc main_v9)) := by
  have e : V6 m ρ c main_v12 = Host.scatterAdd scatter_S10000x128_S640000x1_S640000x128_1_0_0_1
      (broadcastInDim S10000x128 ![] bcast_S_S10000x128 (constant S_ .f32 0x00000000#32))
      (broadcastInDim S640000x1 ![0] bcast_S640000_S640000x1_0 (W5 m ρ c (Proc.devRef .tc main_v3)))
      (W5 m ρ c (Proc.devRef .tc main_v9)) := by
    show StableHlo.after hostOps2 (W5 m ρ c) (Proc.devRef .tc main_v12) = _
    after_results <;> rfl
  rw [e, W5_v3]

end Any

/-! ## The three calls' outputs, and the result -/

section AtIdeal

variable (m : (ℓ : Loc nD τ sig) → Buf (Elt Ideal) ℓ) (ρ : Dev nD → PrngReg)

/-- After the first call its output holds x · lin1_wᵀ. -/
theorem W2_v4 (c : Dev nD) :
    W2 m ρ c (Proc.devRef .tc main_v4)
      = mulT (m ((c : Thread nD τ).loc main_arg0)) (m ((c : Thread nD τ).loc main_arg10)) := by
  refine (W2_arr m ρ c 2).trans ((Lin1.final (V1 m ρ) c).trans ?_)
  rw [V1_arg0, V1_arg10]

/-- After the second call its output holds the message array of the arguments, the source features taken with fill. -/
theorem W5_v9 (c : Dev nD) :
    W5 m ρ c (Proc.devRef .tc main_v9)
      = message (m ((c : Thread nD τ).loc main_arg3))
          (shapeCast S640000x1 (m ((c : Thread nD τ).loc main_arg2)) shapeCasts_S640000_S640000x1)
          (takeFill (mulT (m ((c : Thread nD τ).loc main_arg0)) (m ((c : Thread nD τ).loc main_arg10)))
            (srcOf (m ((c : Thread nD τ).loc main_arg1))))
          (m ((c : Thread nD τ).loc main_arg6)) (shapeCast S1x128 (m ((c : Thread nD τ).loc main_arg7)) shapeCasts_S128_S1x128)
          (m ((c : Thread nD τ).loc main_arg8)) (shapeCast S1x128 (m ((c : Thread nD τ).loc main_arg9)) shapeCasts_S128_S1x128) := by
  refine (W5_arr m ρ c 7).trans ((Filter.final (V4 m ρ) c).trans ?_)
  show message (V4 m ρ c main_arg3) (V4 m ρ c main_v6) (V4 m ρ c main_v5) (V4 m ρ c main_arg6) (V4 m ρ c main_v7)
    (V4 m ρ c main_arg8) (V4 m ρ c main_v8) = _
  rw [V4_arg3, V4_v6, V4_v5, V4_arg6, V4_v7, V4_arg8, V4_v8, W2_v4, W2_v1]

/-- After the third call the result array holds the two-layer network of the aggregated messages. -/
theorem W7_v15 (c : Dev nD) :
    W7 m ρ c (Proc.devRef .tc main_v15)
      = affine (tanhA (affine
            (Host.scatterAdd scatter_S10000x128_S640000x1_S640000x128_1_0_0_1
              (broadcastInDim S10000x128 ![] bcast_S_S10000x128 (constant S_ .f32 0x00000000#32))
              (broadcastInDim S640000x1 ![0] bcast_S640000_S640000x1_0 (dstOf (m ((c : Thread nD τ).loc main_arg1))))
              (W5 m ρ c (Proc.devRef .tc main_v9)))
            (m ((c : Thread nD τ).loc main_arg11)) (shapeCast S1x128 (m ((c : Thread nD τ).loc main_arg12)) shapeCasts_S128_S1x128)))
          (m ((c : Thread nD τ).loc main_arg13)) (shapeCast S1x128 (m ((c : Thread nD τ).loc main_arg14)) shapeCasts_S128_S1x128) := by
  refine (W7_arr m ρ c 5).trans ((Epilogue.final (V6 m ρ) c).trans ?_)
  show affine (tanhA (affine (V6 m ρ c main_v12) (V6 m ρ c main_arg11) (V6 m ρ c main_v13))) (V6 m ρ c main_arg13)
    (V6 m ρ c main_v14) = _
  rw [V6_v12, V6_arg11, V6_v13, V6_arg13, V6_v14]

end AtIdeal

end Cert.KernelIdeal.Reads

end
-- ==== Proof.RefStages.lean ====
/-
  The reference program's stages as the same whole-array functions the kernel program's pallas_calls compute.
    * its per-edge product  h[src] · (W · C[:, None])  is the message array (hs · W) · C: the two groupings of the triple
      product agree on the extended reals, where multiplication is associative (no finiteness is needed);
    * its result is the two-layer network (layer, tanh, layer) of the scatter-added messages.
  The bias rows are the [128] bias vectors cast to [1, 128], and the length column is the [E] length vector cast to [E, 1]:
  the shapes in which the kernel program stages them.
-/
import proofs.«431437_j31559419691084_1_alg».proof.Proof.Gen.ReferenceIdeal.Read
import proofs.«431437_j31559419691084_1_alg».proof.Proof.Message

noncomputable section

namespace Cert.ReferenceIdeal.Stages

open Cert.ReferenceIdeal Cert.ReferenceIdeal.Facts₀ Cert.ReferenceIdeal.Gen Cert.ReferenceIdeal.Read
open Cert.Lib Cert.Message
open Idealize.ShloMosaic Idealize.ShloMosaic.ValueIdx

variable (hrow : S128.ShapeCasts S1x128) (hcol : S640000.ShapeCasts S640000x1)

/-- The reference's cutoff vector, entry e, is the cutoff of the e-th length. -/
theorem cutoff_apply (x2 : FVec Ideal S640000 .f32) (e : Fin 640000) :
    val_main_v9 (F := Ideal) x2 (ix1 e) = cutoff (x2 (ix1 e)) := rfl

/-- The reference's per-edge product is the message array of the gathered projected features. -/
theorem msg_eq (x0 : FVec Ideal S10000x128 .f32) (x1 : IVec S2x640000 32) (x2 : FVec Ideal S640000 .f32)
    (x3 : FVec Ideal S640000x64 .f32) (x6 : FVec Ideal S128x64 .f32) (x7 : FVec Ideal S128 .f32)
    (x8 : FVec Ideal S128x128 .f32) (x9 : FVec Ideal S128 .f32) (x10 : FVec Ideal S128x128 .f32) :
    val_main_v37 (F := Ideal) x0 x1 x2 x3 x6 x7 x8 x9 x10
      = message x3 (shapeCast S640000x1 x2 hcol)
          (Host.gather gather_S10000x128_S640000x1_S640000x128_1_0_n_n_0_1_1128 (mulT x0 x10) (val_main_v35 (F := Ideal) x1))
          x6 (shapeCast S1x128 x7 hrow) x8 (shapeCast S1x128 x9 hrow) := by
  unfold val_main_v37 val_main_v36 val_main_v25 val_main_v24 val_main_v23 val_main_v22 val_main_v21 val_main_v20 val_main_v19
    val_main_v18 val_main_v17 val_main_v16 val_main_v15 val_main_v14 val_main_v13 val_main_v12 val_main_v11 val_main_v10
  rw [dotGeneral_transpose _ rfl rfl rfl rfl rfl rfl none x0 x10,
    addf_dotGeneral_bias _ rfl rfl rfl rfl rfl rfl none x3 x6 x7 _ _ _ hrow, hostTanh_eq_tanhA,
    addf_dotGeneral_bias _ rfl rfl rfl rfl rfl rfl none (tanhA (affine x3 x6 (shapeCast S1x128 x7 hrow))) x8 x9 _ _ _ hrow]
  funext i
  obtain ⟨e, c, rfl⟩ : ∃ (e : Fin 640000) (c : Fin 128), i = ix2 e c := ⟨i 0, i 1, eq_ix2 i⟩
  rw [mulf_apply, mulf_apply, broadcastInDim_col_apply, message_apply, shapeCast_a_a1_apply, cutoff_apply, mul_assoc]

/-- The reference's result is the two-layer network of the scatter-added messages. -/
theorem out_eq (x0 : FVec Ideal S10000x128 .f32) (x1 : IVec S2x640000 32) (x2 : FVec Ideal S640000 .f32)
    (x3 : FVec Ideal S640000x64 .f32) (x6 : FVec Ideal S128x64 .f32) (x7 : FVec Ideal S128 .f32)
    (x8 : FVec Ideal S128x128 .f32) (x9 : FVec Ideal S128 .f32) (x10 x11 : FVec Ideal S128x128 .f32)
    (x12 : FVec Ideal S128 .f32) (x13 : FVec Ideal S128x128 .f32) (x14 : FVec Ideal S128 .f32) :
    val_main_v51 (F := Ideal) x0 x1 x2 x3 x6 x7 x8 x9 x10 x11 x12 x13 x14
      = affine (tanhA (affine (val_main_v40 (F := Ideal) x0 x1 x2 x3 x6 x7 x8 x9 x10) x11 (shapeCast S1x128 x12 hrow)))
          x13 (shapeCast S1x128 x14 hrow) := by
  unfold val_main_v51 val_main_v50 val_main_v49 val_main_v48 val_main_v47 val_main_v46 val_main_v45 val_main_v44 val_main_v43
    val_main_v42 val_main_v41
  rw [addf_dotGeneral_bias _ rfl rfl rfl rfl rfl rfl none (val_main_v40 (F := Ideal) x0 x1 x2 x3 x6 x7 x8 x9 x10) x11 x12 _ _ _ hrow,
    hostTanh_eq_tanhA,
    addf_dotGeneral_bias _ rfl rfl rfl rfl rfl rfl none _ x13 x14 _ _ _ hrow]

end Cert.ReferenceIdeal.Stages

end
-- ==== Proof.Bridge.lean ====
/-
  The two programs compute one function.
  As a function of the argument arrays the result is
      out = tanh (agg · lin2_wᵀ + lin2_b) · blk_wᵀ + blk_b,      agg = the messages scatter-added into their destination rows,
      message (e, ·) = (h[src e] · W (e, ·)) · C (ew e),           h = x · lin1_wᵀ,
  with W the filter network of the radial-basis rows and C the cosine cutoff (the message module).
    * The kernel program computes h, the messages and the epilogue in three pallas_calls, takes h's rows WITH FILL (a
      not-a-number row where the wrapped source index is out of range) and scatter-adds on the host. Under the precondition
      every source index lies in −10000 … 9999, so the fill never applies and the take is the plain gather.
    * The reference computes everything on the host, gathers without a fill, and groups the triple product the other way.
  The source-index range is read out of the precondition's last conjunct.
-/
import proofs.«431437_j31559419691084_1_alg».proof.Defs
import proofs.«431437_j31559419691084_1_alg».proof.Proof.Gen.Pre_finite_inputs
import proofs.«431437_j31559419691084_1_alg».proof.Proof.HostReads
import proofs.«431437_j31559419691084_1_alg».proof.Proof.RefStages
import Idealize.ShloMosaic.Lib.ReduceAll

set_option maxRecDepth 16384

noncomputable section

namespace Cert.Bridge

open Cert.KernelIdeal Cert.KernelIdeal.Gen Cert.KernelIdeal.Take Cert.KernelIdeal.Reads Cert.Lib Cert.Message
open Idealize.ShloMosaic Idealize.ShloMosaic.TcCoe Idealize.ShloMosaic.ValueIdx Idealize.SL.Sem

/-- The result as one function of the argument arrays (the atom types and sequence neighbours are not read). -/
def result (a0 : FVec Ideal S10000x128 .f32) (a1 : IVec S2x640000 32) (a2 : FVec Ideal S640000 .f32)
    (a3 : FVec Ideal S640000x64 .f32) (a6 : FVec Ideal S128x64 .f32) (a7 : FVec Ideal S128 .f32)
    (a8 : FVec Ideal S128x128 .f32) (a9 : FVec Ideal S128 .f32) (a10 a11 : FVec Ideal S128x128 .f32)
    (a12 : FVec Ideal S128 .f32) (a13 : FVec Ideal S128x128 .f32) (a14 : FVec Ideal S128 .f32) : FVec Ideal S10000x128 .f32 :=
  affine (tanhA (affine
      (Host.scatterAdd scatter_S10000x128_S640000x1_S640000x128_1_0_0_1
        (broadcastInDim S10000x128 ![] bcast_S_S10000x128 (constant S_ .f32 0x00000000#32))
        (broadcastInDim S640000x1 ![0] bcast_S640000_S640000x1_0 (dstOf a1))
        (message a3 (shapeCast S640000x1 a2 shapeCasts_S640000_S640000x1)
          (Host.gather gather_S10000x128_S640000x1_S640000x128_1_0_n_n_0_1_1128 (mulT a0 a10) (idxCol (srcOf a1)))
          a6 (shapeCast S1x128 a7 shapeCasts_S128_S1x128) a8 (shapeCast S1x128 a9 shapeCasts_S128_S1x128)))
      a11 (shapeCast S1x128 a12 shapeCasts_S128_S1x128)))
    a13 (shapeCast S1x128 a14 shapeCasts_S128_S1x128)

/-! ## The source-index range, out of the precondition -/

theorem and1 : ∀ (a b : BitVec 1), IntOp.andi a b = 1#1 ↔ a = 1#1 ∧ b = 1#1 := by decide

instance : Subsingleton Cert.Pre_finite_inputs.S_.Idx := ⟨fun a b => funext fun d => d.elim0⟩

/-- Under the precondition every source index lies in −10000 … 9999 (signed): its last conjunct is the and over all edges
    of (src ≥ −10000) ∧ (src < 10000). -/
theorem src_range (m : (ℓ : Loc nD τ sig) → Buf (Elt Ideal) ℓ) (h : Cert.Pre_KernelIdeal m) (c : Dev nD) (e : S640000.Idx) :
    -10000 ≤ (srcOf (m ((c : Thread nD τ).loc main_arg1)) e).toInt
      ∧ (srcOf (m ((c : Thread nD τ).loc main_arg1)) e).toInt < 10000 := by
  have e0 := congrFun (h c) ix0
  dsimp only [Cert.Pre_finite_inputs.fn, Cert.Pre_finite_inputs.fn_part1, Cert.Pre_finite_inputs.fn_part2,
    Cert.Pre_finite_inputs.fn_part3] at e0
  have e1 := ((and1 _ _).1 e0).2
  have e2 := Host.reduce_andi_all _ _ _ _ ix0 e1 e
  have e3 : IntOp.andi (IntOp.cmpi .sge (srcOf (m ((c : Thread nD τ).loc main_arg1)) e) 4294957296#32)
      (IntOp.cmpi .slt (srcOf (m ((c : Thread nD τ).loc main_arg1)) e) 10000#32) = 1#1 := e2
  obtain ⟨hge, hlt⟩ := (and1 _ _).1 e3
  have hm : (4294957296#32 : BitVec 32).toInt = -10000 := by decide
  have hk : (10000#32 : BitVec 32).toInt = 10000 := by decide
  exact ⟨by have := (cmpi_sge_one_iff _ _).1 hge; rwa [hm] at this, by have := (cmpi_slt_one_iff _ _).1 hlt; rwa [hk] at this⟩

/-! ## The kernel program's result -/

/-- Under the precondition the kernel program's result array ends at the function of the arguments. -/
theorem kernel_value (m : (ℓ : Loc nD τ sig) → Buf (Elt Ideal) ℓ) (ρ : Dev nD → PrngReg) (h : Cert.Pre_KernelIdeal m) (c : Dev nD) :
    W7 m ρ c (Proc.devRef .tc main_v15)
      = result (m ((c : Thread nD τ).loc main_arg0)) (m ((c : Thread nD τ).loc main_arg1)) (m ((c : Thread nD τ).loc main_arg2))
          (m ((c : Thread nD τ).loc main_arg3)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13))
          (m ((c : Thread nD τ).loc main_arg14)) := by
  rw [W7_v15, W5_v9, takeFill_eq_gather _ _ (src_range m h c)]
  rfl

/-! ## The reference's result -/

/-- The reference's result is the same function of its arguments. -/
theorem ref_value (x0 : FVec Ideal S10000x128 .f32) (x1 : IVec S2x640000 32) (x2 : FVec Ideal S640000 .f32)
    (x3 : FVec Ideal S640000x64 .f32) (x6 : FVec Ideal S128x64 .f32) (x7 : FVec Ideal S128 .f32)
    (x8 : FVec Ideal S128x128 .f32) (x9 : FVec Ideal S128 .f32) (x10 x11 : FVec Ideal S128x128 .f32)
    (x12 : FVec Ideal S128 .f32) (x13 : FVec Ideal S128x128 .f32) (x14 : FVec Ideal S128 .f32) :
    Cert.ReferenceIdeal.Read.val_main_v51 (F := Ideal) x0 x1 x2 x3 x6 x7 x8 x9 x10 x11 x12 x13 x14
      = result x0 x1 x2 x3 x6 x7 x8 x9 x10 x11 x12 x13 x14 := by
  rw [Cert.ReferenceIdeal.Stages.out_eq shapeCasts_S128_S1x128]
  unfold Cert.ReferenceIdeal.Read.val_main_v40
  rw [Cert.ReferenceIdeal.Stages.msg_eq shapeCasts_S128_S1x128 shapeCasts_S640000_S640000x1]
  rfl

end Cert.Bridge

end
-- ==== Proof.lean ====
/-
  An interaction block of a continuous-filter graph network: for node features x, edges (src, dst) with lengths ew and
  radial-basis expansions ea,
      h   = x · lin1_wᵀ
      msg = h[src] · (tanh (ea · w₁ᵀ + b₁) · w₂ᵀ + b₂) · C (ew)         C the cosine cutoff below radius 5
      agg = the messages summed into their destination nodes
      out = tanh (agg · lin2_wᵀ + lin2_b) · blk_wᵀ + blk_b.
  The kernel program computes h, msg and out in three pallas_calls tiled over rows, with the gather and the scatter-add between
  them on the host; the reference computes all of it on the host. Over the extended reals, where a change of float format
  is the identity and every sum is exact, the two are one function of the arguments:
    * a row of x · wᵀ, and of a layer-tanh-layer network, depends on the same row of the input only, so the row tiles of
      each call assemble to the whole-array function (the three region modules);
    * the two groupings (h[src] · W) · C and h[src] · (W · C) agree, multiplication being associative;
    * the kernel program's take fills a row with a not-a-number where the wrapped source index is out of range, the
      reference's plain gather clamps there: the two agree exactly where every source index is a valid (possibly negative)
      row index, −10000 ≤ src < 10000, which the precondition states.
  The three frames are the generated ones; the idealization rewrote nothing, so the preservation claim is empty.
-/
import proofs.«431437_j31559419691084_1_alg».proof.Defs
import proofs.«431437_j31559419691084_1_alg».proof.Proof.Gen.Kernel
import proofs.«431437_j31559419691084_1_alg».proof.Proof.Gen.Kernel.Skeleton
import proofs.«431437_j31559419691084_1_alg».proof.Proof.Gen.Kernel.Launch
import proofs.«431437_j31559419691084_1_alg».proof.Proof.Gen.Kernel.Points
import proofs.«431437_j31559419691084_1_alg».proof.Proof.Gen.Kernel.Frame
import proofs.«431437_j31559419691084_1_alg».proof.Proof.Gen.KernelIdeal
import proofs.«431437_j31559419691084_1_alg».proof.Proof.Gen.KernelIdeal.Skeleton
import proofs.«431437_j31559419691084_1_alg».proof.Proof.Gen.KernelIdeal.Launch
import proofs.«431437_j31559419691084_1_alg».proof.Proof.Gen.KernelIdeal.Points
import proofs.«431437_j31559419691084_1_alg».proof.Proof.Gen.KernelIdeal.Frame
import proofs.«431437_j31559419691084_1_alg».proof.Proof.Gen.ReferenceIdeal
import proofs.«431437_j31559419691084_1_alg».proof.Proof.Gen.ReferenceIdeal.Run
import proofs.«431437_j31559419691084_1_alg».proof.Proof.Gen.ReferenceIdeal.Read
import proofs.«431437_j31559419691084_1_alg».proof.Proof.Gen.Pre_finite_inputs
import proofs.«431437_j31559419691084_1_alg».proof.Proof.KernelRun
import proofs.«431437_j31559419691084_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments, under the precondition, both programs end with the result array at the one
    function of the arguments. -/
theorem algebraic : Cert.algebraic_KernelIdeal_ReferenceIdeal := by
  intro m ρ m' ρ' hpre hagree
  refine ⟨fun c => Cert.Bridge.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.Bridge.kernel_value m ρ hpre c), (h c).2⟩)
      (Cert.KernelIdeal.RunValue.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14⟩ := hagree c
    rw [Cert.ReferenceIdeal.Read.val_main_v51_eq, Cert.Bridge.ref_value, h0, h1, h2, h3, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
